-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x4096x64 : Shape := ⟨3, ![16, 4096, 64]⟩
abbrev S_ : Shape := ⟨0, ![]⟩

class Facts : Prop where
  bcast_S_S16x4096x64 : S_.BroadcastsInDim S16x4096x64 (![] : Fin 0 → Fin S16x4096x64.rank)
  reducesTo_S16x4096x64_S_d0_1_2 : S16x4096x64.ReducesTo [0, 1, 2] S_
  h_S_ : 0 < S_.numel

variable [Facts]

def fn {F : FTy → Type} [FloatOps F] (main_arg0 : FVec F S16x4096x64 .f32) (main_arg1 : FVec F S16x4096x64 .f32) : IVec S_ 1 :=
  let main_v0 : FVec F S16x4096x64 .f32 := Host.absf main_arg0
  let main_cst : FVec F S_ .f32 := constant S_ .f32 0x7F800000#32
  let main_v1 : FVec F S16x4096x64 .f32 := broadcastInDim S16x4096x64 ![] bcast_S_S16x4096x64 main_cst
  let main_v2 : IVec S16x4096x64 1 := cmpf .olt main_v0 main_v1
  let main_c : IVec S_ 1 := constantI S_ 1 1#1
  let main_v3 : IVec S_ 1 := (fun x v => Host.reduce IntOp.andi x v reducesTo_S16x4096x64_S_d0_1_2 h_S_) main_v2 main_c
  let main_v4 : FVec F S16x4096x64 .f32 := Host.absf main_arg1
  let main_cst_0 : FVec F S_ .f32 := constant S_ .f32 0x7F800000#32
  let main_v5 : FVec F S16x4096x64 .f32 := broadcastInDim S16x4096x64 ![] bcast_S_S16x4096x64 main_cst_0
  let main_v6 : IVec S16x4096x64 1 := cmpf .olt main_v4 main_v5
  let main_c_1 : IVec S_ 1 := constantI S_ 1 1#1
  let main_v7 : IVec S_ 1 := (fun x v => Host.reduce IntOp.andi x v reducesTo_S16x4096x64_S_d0_1_2 h_S_) main_v6 main_c_1
  let main_v8 : IVec S_ 1 := andi main_v3 main_v7
  main_v8
-- ==== Kernel.lean ====
abbrev S16x4096x64 : Shape := ⟨3, ![16, 4096, 64]⟩
abbrev S16x64x4096 : Shape := ⟨3, ![16, 64, 4096]⟩
abbrev S16x1x1 : Shape := ⟨3, ![16, 1, 1]⟩
abbrev S1x2048x64 : Shape := ⟨3, ![1, 2048, 64]⟩
abbrev S1x64x2048 : Shape := ⟨3, ![1, 64, 2048]⟩
abbrev S1x1x1 : Shape := ⟨3, ![1, 1, 1]⟩
abbrev S2048x1 : Shape := ⟨2, ![2048, 1]⟩
abbrev S1x4096 : Shape := ⟨2, ![1, 4096]⟩
abbrev S1x1 : Shape := ⟨2, ![1, 1]⟩
abbrev S2048x64 : Shape := ⟨2, ![2048, 64]⟩
abbrev S64x2048 : Shape := ⟨2, ![64, 2048]⟩
abbrev S2048 : Shape := ⟨1, ![2048]⟩
abbrev S1x2048 : Shape := ⟨2, ![1, 2048]⟩
abbrev S2048x2048 : Shape := ⟨2, ![2048, 2048]⟩
abbrev S1 : Shape := ⟨1, ![1]⟩
abbrev S_ : Shape := ⟨0, ![]⟩

abbrev nBuf : Space → Nat
  | .hbm => 14
  | .vmem => 11
  | .smem => 0
  | _ => 0

abbrev bufTy : (tb : Table) → Fin (tcTables nBuf tb) → BufTy
  | .hbm, ⟨0, _⟩ => ⟨S16x4096x64, .f32⟩
  | .hbm, ⟨1, _⟩ => ⟨S16x4096x64, .f32⟩
  | .hbm, ⟨2, _⟩ => ⟨S16x64x4096, .f32⟩
  | .hbm, ⟨3, _⟩ => ⟨S16x1x1, .f32⟩
  | .hbm, ⟨4, _⟩ => ⟨S16x1x1, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .local _ .vmem, ⟨0, _⟩ => ⟨S1x2048x64, .f32⟩
  | .local _ .vmem, ⟨1, _⟩ => ⟨S1x2048x64, .f32⟩
  | .local _ .vmem, ⟨2, _⟩ => ⟨S1x64x2048, .f32⟩
  | .local _ .vmem, ⟨3, _⟩ => ⟨S1x64x2048, .f32⟩
  | .local _ .vmem, ⟨4, _⟩ => ⟨S1x1x1, .f32⟩
  | .local _ .vmem, ⟨5, _⟩ => ⟨S1x1x1, .f32⟩
  | .local _ .vmem, ⟨6, _⟩ => ⟨S1x1x1, .f32⟩
  | .local _ .vmem, ⟨7, _⟩ => ⟨S1x1x1, .f32⟩
  | .local _ .vmem, ⟨8, _⟩ => ⟨S2048x1, .f32⟩
  | .local _ .vmem, ⟨9, _⟩ => ⟨S1x4096, .f32⟩
  | .local _ .vmem, ⟨10, _⟩ => ⟨S1x1, .f32⟩
  | _, _ => ⟨S16x4096x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_cst : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_cst_2 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![16, 2, 2], ![false, false, false]⟩

def k0_mult1 (i : grid0.Coords) : BitVec 32 :=
  let arg2 : BitVec 32 := BitVec.ofNat 32 (i 2).val
  let c2048_i32 : BitVec 32 := 2048#32
  let v38 : BitVec 32 := Scalar.muli arg2 c2048_i32
  v38
def k0_off1 (i : grid0.Coords) : Fin 2 → Nat :=
  let c0_19 : Index := 0#32
  let arg2 : BitVec 32 := BitVec.ofNat 32 (i 2).val
  let c2048_i32 : BitVec 32 := 2048#32
  let v38 : BitVec 32 := Scalar.muli arg2 c2048_i32
  let v39 : BitVec 32 := v38
  let v40 : Index := Scalar.indexCast v39
  ![0, v40.toNat]
def k0_cond4 (i : grid0.Coords) : BitVec 1 :=
  let arg1 : BitVec 32 := BitVec.ofNat 32 (i 1).val
  let c1_i32_22 : BitVec 32 := 1#32
  let v50 : BitVec 1 := Scalar.cmpi .eq arg1 c1_i32_22
  let arg2 : BitVec 32 := BitVec.ofNat 32 (i 2).val
  let c1_i32_23 : BitVec 32 := 1#32
  let v51 : BitVec 1 := Scalar.cmpi .eq arg2 c1_i32_23
  let v52 : BitVec 1 := Scalar.andi v50 v51
  let v53 : BitVec 32 := Scalar.extui v52
  let c0_i32_24 : BitVec 32 := 0#32
  let v54 : BitVec 1 := Scalar.cmpi .ne v53 c0_i32_24
  v54

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x64x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1x1x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

class Facts₀ : Prop where
  transposes_S16x4096x64_S16x64x4096_0_2_1 : S16x4096x64.Transposes [0, 2, 1] S16x64x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S2048x64 : S1x2048x64.ShapeCasts S2048x64
  inb_S1x64x2048_S1x64x2048_0_0_0 : ∀ a, (![0, 0, 0] : Fin 3 → Nat) a + S1x64x2048.size a ≤ S1x64x2048.size a
  h_S1x64x2048 : 0 < S1x64x2048.numel
  shapeCasts_S1x64x2048_S64x2048 : S1x64x2048.ShapeCasts S64x2048
  reduces_S2048x64_S2048 : S2048x64.Reduces [1] S2048
  shapeCasts_S2048_S2048x1 : S2048.ShapeCasts S2048x1
  reduces_S64x2048_S2048 : S64x2048.Reduces [0] S2048
  shapeCasts_S2048_S1x2048 : S2048.ShapeCasts S1x2048
  bitsLt_bf16_f32 : FTy.bits .bf16 < FTy.bits .f32
  broadcasts_S2048x1_S2048x2048 : S2048x1.Broadcasts S2048x2048
  broadcasts_S1x2048_S2048x2048 : S1x2048.Broadcasts S2048x2048
  reduces_S2048x2048_S2048 : S2048x2048.Reduces [1] S2048
  reduces_S2048x2048_S2048_2 : S2048x2048.Reduces [0] S2048
  h_S1x2048 : 0 < S1x2048.numel
  shapeCasts_S1x2048_S1x2048 : S1x2048.ShapeCasts S1x2048
  reduces_S2048x1_S1 : S2048x1.Reduces [0] S1
  shapeCasts_S1_S1x1 : S1.ShapeCasts S1x1
  inb_S1x1x1_S1x1x1_0_0_0 : ∀ a, (![0, 0, 0] : Fin 3 → Nat) a + S1x1x1.size a ≤ S1x1x1.size a
  h_S1x1x1 : 0 < S1x1x1.numel
  shapeCasts_S1x1x1_S1x1 : S1x1x1.ShapeCasts S1x1
  shapeCasts_S1x1_S1x1x1 : S1x1.ShapeCasts S1x1x1
  reduces_S1x4096_S1 : S1x4096.Reduces [1] S1
  reducesTo_S16x1x1_S_d0_1_2 : S16x1x1.ReducesTo [0, 1, 2] S_
  h_S_ : 0 < S_.numel
  dot_S2048x64_S64x2048_S2048x2048_1_0_0_1_n_n_wf : DotDims.WF S2048x64 S64x2048 S2048x2048 [1] [0] [0] [1] [] []
  hrank0 : 0 < grid0.rank
  k0_mult1_dvd : ∀ i : grid0.Coords, 2048 ∣ (k0_mult1 i).toNat
  k0_off1_inb : ∀ i : grid0.Coords, ∀ a, (k0_off1 i) a + S1x2048.size a ≤ S1x4096.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x64.size a ≤ S16x4096x64.size a
  hwx0_0 : ∀ i : grid0.Coords, EltTy.bits .f32 = 32 ∨ (Rect.block (s := S16x4096x64) S1x2048x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x64x2048.size a ≤ S16x64x4096.size a
  hwx0_1 : ∀ i : grid0.Coords, EltTy.bits .f32 = 32 ∨ (Rect.block (s := S16x64x4096) S1x64x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1.size a ≤ S16x1x1.size a
  hwx0_2 : ∀ i : grid0.Coords, EltTy.bits .f32 = 32 ∨ (Rect.block (s := S16x1x1) S1x1x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x1.size a ≤ S16x1x1.size a
  hwx0_3 : ∀ i : grid0.Coords, EltTy.bits .f32 = 32 ∨ (Rect.block (s := S16x1x1) S1x1x1.size (cc0_transform_3 i) (hinb0_3 i)).WholeWords (EltTy.packing .f32)

variable [Facts₀]

def dot_S2048x64_S64x2048_S2048x2048_1_0_0_1_n_n : DotDims S2048x64 S64x2048 S2048x2048 where
  lhsContracting := [1]
  rhsContracting := [0]
  lhsNonContracting := [0]
  rhsNonContracting := [1]
  lhsBatch := []
  rhsBatch := []
  wf := dot_S2048x64_S64x2048_S2048x2048_1_0_0_1_n_n_wf

abbrev win0_0 : Pipeline.Window sig grid0 :=
  Pipeline.Window.ofSpec (Memref.whole main_arg0) S1x2048x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x64x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1_0) S1x1x1.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1_1) S1x1x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun i => !(k0_cond4 i == 1#1) | 3 => fun i => !(k0_cond4 i == 1#1) | ⟨_ + 4, h⟩ => absurd h (Nat.not_lt.2 (Nat.le_add_left _ _))

class Facts : Prop extends Facts₀ where

variable [Facts]
-- ==== ReferenceIdeal.lean ====
abbrev S16x4096x64 : Shape := ⟨3, ![16, 4096, 64]⟩
abbrev S_ : Shape := ⟨0, ![]⟩
abbrev S16x4096 : Shape := ⟨2, ![16, 4096]⟩
abbrev S16x4096x4096 : Shape := ⟨3, ![16, 4096, 4096]⟩
abbrev S16x4096x1 : Shape := ⟨3, ![16, 4096, 1]⟩
abbrev S16x1x4096 : Shape := ⟨3, ![16, 1, 4096]⟩

abbrev nBuf : Space → Nat
  | .hbm => 34
  | .vmem => 0
  | .smem => 0
  | _ => 0

abbrev bufTy : (tb : Table) → Fin (tcTables nBuf tb) → BufTy
  | .hbm, ⟨0, _⟩ => ⟨S16x4096x64, .f32⟩
  | .hbm, ⟨1, _⟩ => ⟨S16x4096x64, .f32⟩
  | .hbm, ⟨2, _⟩ => ⟨S16x4096x64, .f32⟩
  | .hbm, ⟨3, _⟩ => ⟨S_, .f32⟩
  | .hbm, ⟨4, _⟩ => ⟨S16x4096, .f32⟩
  | .hbm, ⟨5, _⟩ => ⟨S16x4096x64, .f32⟩
  | .hbm, ⟨6, _⟩ => ⟨S_, .f32⟩
  | .hbm, ⟨7, _⟩ => ⟨S16x4096, .f32⟩
  | .hbm, ⟨8, _⟩ => ⟨S16x4096x4096, .f32⟩
  | .hbm, ⟨9, _⟩ => ⟨S16x4096x1, .f32⟩
  | .hbm, ⟨10, _⟩ => ⟨S16x1x4096, .f32⟩
  | .hbm, ⟨11, _⟩ => ⟨S16x4096x4096, .f32⟩
  | .hbm, ⟨12, _⟩ => ⟨S16x4096x4096, .f32⟩
  | .hbm, ⟨13, _⟩ => ⟨S16x4096x4096, .f32⟩
  | .hbm, ⟨14, _⟩ => ⟨S_, .f32⟩
  | .hbm, ⟨15, _⟩ => ⟨S16x4096x4096, .f32⟩
  | .hbm, ⟨16, _⟩ => ⟨S16x4096x4096, .f32⟩
  | .hbm, ⟨17, _⟩ => ⟨S16x4096x4096, .f32⟩
  | .hbm, ⟨18, _⟩ => ⟨S_, .f32⟩
  | .hbm, ⟨19, _⟩ => ⟨S16x4096x4096, .f32⟩
  | .hbm, ⟨20, _⟩ => ⟨S16x4096x4096, .f32⟩
  | .hbm, ⟨21, _⟩ => ⟨S_, .f32⟩
  | .hbm, ⟨22, _⟩ => ⟨S16x4096, .f32⟩
  | .hbm, ⟨23, _⟩ => ⟨S_, .f32⟩
  | .hbm, ⟨24, _⟩ => ⟨S16x4096, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | _, _ => ⟨S16x4096x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_cst_3 : Ref sig .tc := ⟨.hbm, 21, rfl⟩
abbrev main_v15 : Ref sig .tc := ⟨.hbm, 22, rfl⟩
abbrev main_cst_4 : Ref sig .tc := ⟨.hbm, 23, rfl⟩
abbrev main_v16 : Ref sig .tc := ⟨.hbm, 24, rfl⟩
abbrev main_cst_5 : Ref sig .tc := ⟨.hbm, 25, rfl⟩
abbrev main_v17 : Ref sig .tc := ⟨.hbm, 26, rfl⟩
abbrev main_cst_6 : Ref sig .tc := ⟨.hbm, 27, rfl⟩
abbrev main_v18 : Ref sig .tc := ⟨.hbm, 28, rfl⟩
abbrev main_cst_7 : Ref sig .tc := ⟨.hbm, 29, rfl⟩
abbrev main_v19 : Ref sig .tc := ⟨.hbm, 30, rfl⟩
abbrev main_cst_8 : Ref sig .tc := ⟨.hbm, 31, rfl⟩
abbrev main_v20 : Ref sig .tc := ⟨.hbm, 32, rfl⟩
abbrev main_v21 : Ref sig .tc := ⟨.hbm, 33, rfl⟩

abbrev nD : Nat := 1
abbrev τ : Topo := Topo.v7x

variable {F : FTy → Type} [FloatOps F]

class Facts₀ : Prop where
  reducesTo_S16x4096x64_S16x4096_d2 : S16x4096x64.ReducesTo [2] S16x4096
  h_S_ : 0 < S_.numel
  bcast_S16x4096_S16x4096x1_0_1 : S16x4096.BroadcastsInDim S16x4096x1 (![0, 1] : Fin 2 → Fin S16x4096x1.rank)
  bcast_S16x4096_S16x1x4096_0_2 : S16x4096.BroadcastsInDim S16x1x4096 (![0, 2] : Fin 2 → Fin S16x1x4096.rank)
  bcast_S16x4096x1_S16x4096x4096_0_1_2 : S16x4096x1.BroadcastsInDim S16x4096x4096 (![0, 1, 2] : Fin 3 → Fin S16x4096x4096.rank)
  bcast_S16x1x4096_S16x4096x4096_0_1_2 : S16x1x4096.BroadcastsInDim S16x4096x4096 (![0, 1, 2] : Fin 3 → Fin S16x4096x4096.rank)
  bcast_S_S16x4096x4096 : S_.BroadcastsInDim S16x4096x4096 (![] : Fin 0 → Fin S16x4096x4096.rank)
  reducesTo_S16x4096x4096_S16x4096_d2 : S16x4096x4096.ReducesTo [2] S16x4096
  reducesTo_S16x4096x4096_S16x4096_d1 : S16x4096x4096.ReducesTo [1] S16x4096
  reducesTo_S16x4096_S_d0_1 : S16x4096.ReducesTo [0, 1] S_
  dot_S16x4096x64_S16x4096x64_S16x4096x4096_2_2_1_1_0_0_wf : DotDims.WF S16x4096x64 S16x4096x64 S16x4096x4096 [2] [2] [1] [1] [0] [0]

variable [Facts₀]

def dot_S16x4096x64_S16x4096x64_S16x4096x4096_2_2_1_1_0_0 : DotDims S16x4096x64 S16x4096x64 S16x4096x4096 where
  lhsContracting := [2]
  rhsContracting := [2]
  lhsNonContracting := [1]
  rhsNonContracting := [1]
  lhsBatch := [0]
  rhsBatch := [0]
  wf := dot_S16x4096x64_S16x4096x64_S16x4096x4096_2_2_1_1_0_0_wf

class Facts : Prop extends Facts₀ where

variable [Facts]
-- ==== Proof.Spec.lean ====
/-
  The Chamfer loss of two batches of point clouds, over the extended reals, and the two ways it is summed.

  For a batch `b`, points `x_i` (rows of `X`) and `y_j` (rows of `Y`), the squared distance is taken in the expanded form
  `max ((|x_i|² + |y_j|²) − 2 · ⟨x_i, y_j⟩) 0`; the loss is half the sum over `i` of the minimum over `j` plus half the sum
  over `j` of the minimum over `i`, summed over the batches.  The tiled evaluation cuts the 4096 points of each cloud into two
  halves of 2048: a minimum over all 4096 is the minimum (started from `⊤`) of the two halves' minima, and a sum over all
  4096 is the sum of the two halves' sums.  Nothing here needs finiteness: only that `min` is a lattice operation and that
  addition of extended reals is commutative and associative.
-/
import Idealize.ShloMosaic.Lib.ValueIdx
import Idealize.ShloMosaic.PureOps.Ideal.Laws
import Mathlib.Algebra.BigOperators.Fin
import Mathlib.Data.Finset.Fold

noncomputable section

open scoped BigOperators

namespace Cert.Chamfer

open Idealize.ShloMosaic Idealize.ShloMosaic.ValueIdx

/-- A batch of sixteen clouds of 4096 points in dimension 64. -/
abbrev Pts : Type := (⟨3, ![16, 4096, 64]⟩ : Shape).Idx → EReal

/-- The constant two, as the float word both programs print. -/
def two : EReal := Ideal.ofBits .f32 0x40000000#32
/-- The constant one half, as the float word both programs print. -/
def half : EReal := Ideal.ofBits .f32 0x3F000000#32

/-- `|x_i|²`: the sum of the squares of point `i`'s coordinates. -/
def sq (X : Pts) (b : Fin 16) (i : Fin 4096) : EReal := ∑ d : Fin 64, X (ix3 b i d) * X (ix3 b i d)
/-- `⟨x_i, y_j⟩`. -/
def dot (X Y : Pts) (b : Fin 16) (i j : Fin 4096) : EReal := ∑ d : Fin 64, X (ix3 b i d) * Y (ix3 b j d)
/-- The clamped squared distance between `x_i` and `y_j`. -/
def dist (X Y : Pts) (b : Fin 16) (i j : Fin 4096) : EReal := max ((sq X b i + sq Y b j) - two * dot X Y b i j) 0

/-- The nearest `y` to `x_i`: the minimum over all `j`, from `⊤`. -/
def rowMin (X Y : Pts) (b : Fin 16) (i : Fin 4096) : EReal := Finset.univ.fold min ⊤ fun j : Fin 4096 => dist X Y b i j
/-- The nearest `x` to `y_j`: the minimum over all `i`, from `⊤`. -/
def colMin (X Y : Pts) (b : Fin 16) (j : Fin 4096) : EReal := Finset.univ.fold min ⊤ fun i : Fin 4096 => dist X Y b i j

/-- The loss: half the sum of the row minima plus half the sum of the column minima. -/
def loss (X Y : Pts) : EReal :=
  (0 + ∑ b : Fin 16, ∑ i : Fin 4096, rowMin X Y b i) * half + (0 + ∑ b : Fin 16, ∑ j : Fin 4096, colMin X Y b j) * half

/-! ## The two halves -/

/-- Point `r` of half `h`: the point `2048 h + r`. -/
def pt (h : Fin 2) (r : Fin 2048) : Fin 4096 := ⟨2048 * h.val + r.val, by have := h.isLt; have := r.isLt; omega⟩

@[simp] theorem pt_val (h : Fin 2) (r : Fin 2048) : (pt h r).val = 2048 * h.val + r.val := rfl

/-- Every point is in exactly one half. -/
theorem exists_pt (i : Fin 4096) : ∃ h r, i = pt h r := by
  by_cases hi : i.val < 2048
  · exact ⟨0, ⟨i.val, hi⟩, Fin.ext (by simp)⟩
  · exact ⟨1, ⟨i.val - 2048, by have := i.isLt; omega⟩, Fin.ext (by simp; omega)⟩

/-- The minimum over half `m` of the `y`s, for point `r` of half `n` of the `x`s. -/
def tileRow (X Y : Pts) (b : Fin 16) (n m : Fin 2) (r : Fin 2048) : EReal :=
  Finset.univ.fold min ⊤ fun j : Fin 2048 => dist X Y b (pt n r) (pt m j)
/-- The minimum over half `n` of the `x`s, for point `j` of half `m` of the `y`s. -/
def tileCol (X Y : Pts) (b : Fin 16) (n m : Fin 2) (j : Fin 2048) : EReal :=
  Finset.univ.fold min ⊤ fun r : Fin 2048 => dist X Y b (pt n r) (pt m j)

/-- A minimum over all 4096 indices is the running minimum, from `⊤`, of the two halves' minima. -/
theorem fold_min_halves (f : Fin 4096 → EReal) :
    min (min ⊤ (Finset.univ.fold min ⊤ fun j : Fin 2048 => f (pt 0 j))) (Finset.univ.fold min ⊤ fun j : Fin 2048 => f (pt 1 j))
      = Finset.univ.fold min ⊤ f := by
  apply le_antisymm
  · rw [Finset.le_fold_min]
    refine ⟨le_top, fun i _ => ?_⟩
    obtain ⟨h, r, rfl⟩ := exists_pt i
    fin_cases h
    · exact (min_le_left _ _).trans ((min_le_right _ _).trans
        ((Finset.fold_min_le _).2 (Or.inr ⟨r, Finset.mem_univ _, le_rfl⟩)))
    · exact (min_le_right _ _).trans ((Finset.fold_min_le _).2 (Or.inr ⟨r, Finset.mem_univ _, le_rfl⟩))
  · refine le_min (le_min le_top ?_) ?_
    · exact (Finset.le_fold_min _).2 ⟨le_top, fun j _ => (Finset.fold_min_le _).2 (Or.inr ⟨pt 0 j, Finset.mem_univ _, le_rfl⟩)⟩
    · exact (Finset.le_fold_min _).2 ⟨le_top, fun j _ => (Finset.fold_min_le _).2 (Or.inr ⟨pt 1 j, Finset.mem_univ _, le_rfl⟩)⟩

/-- A sum over all 4096 indices is the sum of the two halves' sums. -/
theorem sum_halves (f : Fin 4096 → EReal) : ∑ i, f i = (∑ r : Fin 2048, f (pt 0 r)) + ∑ r : Fin 2048, f (pt 1 r) := by
  have h := Fin.sum_univ_add (a := 2048) (b := 2048) (fun i : Fin (2048 + 2048) => f (Fin.cast (by norm_num) i))
  have e : ∑ i : Fin (2048 + 2048), f (Fin.cast (by norm_num) i) = ∑ i, f i :=
    Fintype.sum_equiv (finCongr (by norm_num)) _ _ fun i => rfl
  rw [← e, h]
  congr 1

/-- What the row accumulator of half `n` holds after both halves of the `y`s: the row minimum. -/
theorem accRow_eq (X Y : Pts) (b : Fin 16) (n : Fin 2) (r : Fin 2048) :
    min (min ⊤ (tileRow X Y b n 0 r)) (tileRow X Y b n 1 r) = rowMin X Y b (pt n r) :=
  fold_min_halves fun j => dist X Y b (pt n r) j

/-- What the column accumulator holds at point `j` of half `m` after both halves of the `x`s: the column minimum. -/
theorem accCol_eq (X Y : Pts) (b : Fin 16) (m : Fin 2) (j : Fin 2048) :
    min (min ⊤ (tileCol X Y b 0 m j)) (tileCol X Y b 1 m j) = colMin X Y b (pt m j) :=
  fold_min_halves fun i => dist X Y b i (pt m j)

/-- The tiled evaluation: per batch the two halves' row-minimum sums added to a zero, and the column minima summed over
    all 4096 columns; then over the batches; then halved and added. -/
def tiled (X Y : Pts) : EReal :=
  half * (0 + ∑ b : Fin 16, ((0 + ∑ r : Fin 2048, min (min ⊤ (tileRow X Y b 0 0 r)) (tileRow X Y b 0 1 r))
      + ∑ r : Fin 2048, min (min ⊤ (tileRow X Y b 1 0 r)) (tileRow X Y b 1 1 r)))
    + half * (0 + ∑ b : Fin 16, ∑ j : Fin 4096, colMin X Y b j)

/-- The tiled evaluation is the loss. -/
theorem tiled_eq_loss (X Y : Pts) : tiled X Y = loss X Y := by
  unfold tiled loss
  rw [mul_comm half, mul_comm half]
  congr 3
  refine Finset.sum_congr rfl fun b _ => ?_
  rw [sum_halves (fun i => rowMin X Y b i), zero_add]
  congr 1
  · exact Finset.sum_congr rfl fun r _ => accRow_eq X Y b 0 r
  · exact Finset.sum_congr rfl fun r _ => accRow_eq X Y b 1 r

end Cert.Chamfer

end
-- ==== Proof.RefSide.lean ====
/-
  The reference program read as the Chamfer loss.

  The reference forms the squared norms of every point of both clouds (a zero plus a sum over the 64 coordinates), the
  batched matrix of inner products, the full 4096 × 4096 matrix of clamped squared distances per batch, its row minima
  and column minima from `+∞`, the two total sums (a zero plus the sum over all (batch, point) pairs), and adds their
  halves.  Read element by element this is the loss of the specification: the leading zeros of the norm sums vanish, a sum
  over the pairs is the double sum over batch and point, and a minimum over an axis is the fold of `min` from `⊤` over
  that axis's coordinates.
-/
import proofs.«131100_j51814485459453_1_alg».proof.Proof.Gen.ReferenceIdeal.Run
import proofs.«131100_j51814485459453_1_alg».proof.Proof.Gen.ReferenceIdeal.Read
import proofs.«131100_j51814485459453_1_alg».proof.Proof.Spec
import Idealize.ShloMosaic.Lib.Pipeline.Value
import Idealize.ShloMosaic.Lib.ValueIdx
import Idealize.ShloMosaic.PureOps.Ideal.Laws

noncomputable section

open scoped BigOperators

namespace Cert.RefSide

open Cert.ReferenceIdeal Cert.ReferenceIdeal.Gen Cert.ReferenceIdeal.Read Idealize.ShloMosaic Idealize.ShloMosaic.ValueIdx Cert.Chamfer

/-- The norm of `x_i` is read, through the two broadcasts, at the coordinates `(b, i, k)`. -/
theorem idx_sqX (b : Fin 16) (i j : Fin 4096) (k : Fin 64) :
    idx_main_v1 (idx_main_v5 (idx_main_v7 (ix3 b i j))) k = ix3 b i k :=
  funext fun a => Fin.ext (by match a with | ⟨0, _⟩ => rfl | ⟨1, _⟩ => rfl | ⟨2, _⟩ => rfl)

/-- The norm of `y_j` is read, through the two broadcasts, at the coordinates `(b, j, k)`. -/
theorem idx_sqY (b : Fin 16) (i j : Fin 4096) (k : Fin 64) :
    idx_main_v3 (idx_main_v6 (idx_main_v8 (ix3 b i j))) k = ix3 b j k :=
  funext fun a => Fin.ext (by match a with | ⟨0, _⟩ => rfl | ⟨1, _⟩ => rfl | ⟨2, _⟩ => rfl)

/-- The inner product's left factor is read at `(b, i, k)`. -/
theorem idx_dotL (b : Fin 16) (i j : Fin 4096) (k : Fin 64) :
    lidx_main_v4 (ix3 b i j) k = ix3 b i k :=
  funext fun a => Fin.ext (by match a with | ⟨0, _⟩ => rfl | ⟨1, _⟩ => rfl | ⟨2, _⟩ => rfl)

/-- The inner product's right factor is read at `(b, j, k)`. -/
theorem idx_dotR (b : Fin 16) (i j : Fin 4096) (k : Fin 64) :
    ridx_main_v4 (ix3 b i j) k = ix3 b j k :=
  funext fun a => Fin.ext (by match a with | ⟨0, _⟩ => rfl | ⟨1, _⟩ => rfl | ⟨2, _⟩ => rfl)

/-- The clamped squared-distance array, read at `(b, i, j)`: the leading zeros of the two norm sums vanish. -/
theorem dist_apply (X Y : (⟨S16x4096x64, .f32⟩ : BufTy).Contents (Elt Ideal)) (b : Fin 16) (i j : Fin 4096) :
    val_main_v14 (F := Ideal) X Y (ix3 b i j) = dist X Y b i j := by
  rw [val_main_v14_apply, val_main_v12_apply, val_main_v9_apply, val_main_v11_apply, val_main_v13_apply,
    val_main_cst_2_apply, val_main_v10_apply, val_main_cst_1_apply, val_main_v4_apply, val_main_v7_apply,
    val_main_v5_apply, val_main_v1_apply, val_main_v8_apply, val_main_v6_apply, val_main_v3_apply,
    val_main_cst_apply, val_main_cst_0_apply]
  simp only [val_main_v0_apply, val_main_v2_apply, idx_sqX, idx_sqY, idx_dotL, idx_dotR]
  show max (((Ideal.ofBits .f32 0x00000000#32 + ∑ k : Fin 64, X (ix3 b i k) * X (ix3 b i k))
      + (Ideal.ofBits .f32 0x00000000#32 + ∑ k : Fin 64, Y (ix3 b j k) * Y (ix3 b j k)))
      - Ideal.ofBits .f32 0x40000000#32 * ∑ k : Fin 64, X (ix3 b i k) * Y (ix3 b j k))
      (Ideal.ofBits .f32 0x00000000#32) = dist X Y b i j
  rw [Ideal.ofBits_zero_f32, zero_add, zero_add]
  rfl

/-- The float word of `+∞` is the top element. -/
theorem ofBits_inf : Ideal.ofBits .f32 0x7F800000#32 = (⊤ : EReal) := by simp [Ideal.ofBits, Ideal.ieee]

/-- The last axis of the distance array's shape can be dropped. -/
theorem hR2 : S16x4096x4096.Reduces [(2 : Fin 3)] S16x4096 := by decide

/-- The middle axis of the distance array's shape can be dropped. -/
theorem hR1 : S16x4096x4096.Reduces [(1 : Fin 3)] S16x4096 := by decide

/-- Dropping the last axis: the index over `(b, i)` with last coordinate `k` is `(b, i, k)`. -/
theorem lift_d2 (b : Fin 16) (i k : Fin 4096) : hR2.lift (ix2 b i) k = ix3 b i k :=
  funext fun a => Fin.ext (by match a with | ⟨0, _⟩ => rfl | ⟨1, _⟩ => rfl | ⟨2, _⟩ => rfl)

/-- Dropping the middle axis: the index over `(b, j)` with middle coordinate `k` is `(b, k, j)`. -/
theorem lift_d1 (b : Fin 16) (j k : Fin 4096) : hR1.lift (ix2 b j) k = ix3 b k j :=
  funext fun a => Fin.ext (by match a with | ⟨0, _⟩ => rfl | ⟨1, _⟩ => rfl | ⟨2, _⟩ => rfl)

/-- A minimum over the last axis, at `(b, i)`: the fold of `min` over `k` of the operand at `(b, i, k)`. -/
theorem min_d2 (x : S16x4096x4096.Idx → EReal) (init : S_.Idx → EReal) (b : Fin 16) (i : Fin 4096) :
    Host.reduce (FloatOps.minimumf (F := Ideal) (φ := .f32)) x init reducesTo_S16x4096x4096_S16x4096_d2 h_S_ (ix2 b i)
      = (Finset.univ : Finset (Fin 4096)).fold min (init (Shape.Idx.first h_S_)) (fun k => x (ix3 b i k)) := by
  refine (Host.reduce_eq_fold_single (FloatOps.minimumf (F := Ideal) (φ := .f32)) x init
    reducesTo_S16x4096x4096_S16x4096_d2 hR2 h_S_ (ix2 b i)).trans ?_
  exact Finset.fold_congr fun k _ => congrArg x (lift_d2 b i k)

/-- A minimum over the middle axis, at `(b, j)`: the fold of `min` over `k` of the operand at `(b, k, j)`. -/
theorem min_d1 (x : S16x4096x4096.Idx → EReal) (init : S_.Idx → EReal) (b : Fin 16) (j : Fin 4096) :
    Host.reduce (FloatOps.minimumf (F := Ideal) (φ := .f32)) x init reducesTo_S16x4096x4096_S16x4096_d1 h_S_ (ix2 b j)
      = (Finset.univ : Finset (Fin 4096)).fold min (init (Shape.Idx.first h_S_)) (fun k => x (ix3 b k j)) := by
  refine (Host.reduce_eq_fold_single (FloatOps.minimumf (F := Ideal) (φ := .f32)) x init
    reducesTo_S16x4096x4096_S16x4096_d1 hR1 h_S_ (ix2 b j)).trans ?_
  exact Finset.fold_congr fun k _ => congrArg x (lift_d1 b j k)

/-- The minimum over the last axis, read at `(b, i)`, is the row minimum. -/
theorem v15_apply (X Y : (⟨S16x4096x64, .f32⟩ : BufTy).Contents (Elt Ideal)) (b : Fin 16) (i : Fin 4096) :
    val_main_v15 (F := Ideal) X Y (ix2 b i) = rowMin X Y b i := by
  refine (min_d2 (val_main_v14 (F := Ideal) X Y) (val_main_cst_3 (F := Ideal)) b i).trans ?_
  show (Finset.univ : Finset (Fin 4096)).fold min (Ideal.ofBits .f32 0x7F800000#32)
      (fun k : Fin 4096 => val_main_v14 (F := Ideal) X Y (ix3 b i k))
    = (Finset.univ : Finset (Fin 4096)).fold min ⊤ fun j : Fin 4096 => dist X Y b i j
  rw [ofBits_inf]
  exact Finset.fold_congr fun k _ => dist_apply X Y b i k

/-- The minimum over the middle axis, read at `(b, j)`, is the column minimum. -/
theorem v16_apply (X Y : (⟨S16x4096x64, .f32⟩ : BufTy).Contents (Elt Ideal)) (b : Fin 16) (j : Fin 4096) :
    val_main_v16 (F := Ideal) X Y (ix2 b j) = colMin X Y b j := by
  refine (min_d1 (val_main_v14 (F := Ideal) X Y) (val_main_cst_4 (F := Ideal)) b j).trans ?_
  show (Finset.univ : Finset (Fin 4096)).fold min (Ideal.ofBits .f32 0x7F800000#32)
      (fun k : Fin 4096 => val_main_v14 (F := Ideal) X Y (ix3 b k j))
    = (Finset.univ : Finset (Fin 4096)).fold min ⊤ fun i : Fin 4096 => dist X Y b i j
  rw [ofBits_inf]
  exact Finset.fold_congr fun k _ => dist_apply X Y b k j

/-- The reference's result is the loss of the two argument arrays. -/
theorem ref_eq (X Y : (⟨S16x4096x64, .f32⟩ : BufTy).Contents (Elt Ideal)) :
    val_main_v21 (F := Ideal) X Y = fun _ => loss X Y := by
  funext s
  rw [val_main_v21_apply, val_main_v18_apply, val_main_v20_apply, val_main_v17_apply, val_main_v19_apply,
    val_main_cst_5_apply, val_main_cst_6_apply, val_main_cst_7_apply, val_main_cst_8_apply,
    ValueIdx.sum_idx2, ValueIdx.sum_idx2]
  simp only [v15_apply, v16_apply]
  show (Ideal.ofBits .f32 0x00000000#32 + ∑ b : Fin 16, ∑ i : Fin 4096, rowMin X Y b i) * Ideal.ofBits .f32 0x3F000000#32
      + (Ideal.ofBits .f32 0x00000000#32 + ∑ b : Fin 16, ∑ j : Fin 4096, colMin X Y b j) * Ideal.ofBits .f32 0x3F000000#32
    = loss X Y
  rw [Ideal.ofBits_zero_f32]
  rfl

end Cert.RefSide

end
-- ==== Proof.Pay.lean ====
/-
  The kernel body's arithmetic, read one element at a time over the extended reals.

  A grid point sees a block of 2048 points `x` (rows of `x0`, 2048 × 64) and a block of 2048 points `y` given
  transposed (columns of `x1`, 64 × 2048).  The body forms the 2048 × 2048 tile of clamped squared distances
  `max ((|x_r|² + |y_j|²) − 2 · ⟨x_r, y_j⟩) 0` (the two squared norms as lane sums, the cross term as a matrix product
  into a zero accumulator, the narrowing to bf16 being the identity on extended reals), takes its row minima and its
  column minima from `+∞`, folds the row minima into the row accumulator, and — at the last column half — adds the
  accumulator's 2048 entries to the running sum; at a batch's last point the running sum and the sum of the 4096 column
  minima are the two outputs.
-/
import proofs.«131100_j51814485459453_1_alg».proof.Proof.Gen.KernelIdeal.Skeleton
import proofs.«131100_j51814485459453_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Pay

open Cert.KernelIdeal Cert.KernelIdeal.Gen Idealize.ShloMosaic Idealize.ShloMosaic.ValueIdx Cert.Chamfer

/-! ## Layout operations on a column, read at an index -/

section Layout
variable {α : Type}

/-- A vector `[a]` cast to the column `[a, 1]` reads, at `(i, u)`, the operand at `i`: the two row-major positions agree. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## A minimum over one axis -/

/-- A `minimumf` reduction over one axis, read on the extended reals: the fold of `min` from the accumulator's value over that
    axis's coordinates. -/
theorem multiReduction_minimumf_single {φ : FTy} {s t : Shape} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-! ## The matrix product's operand indices -/

theorem lhs_mm_0 (i : S2048x2048.Idx) (q : dot_S2048x64_S64x2048_S2048x2048_1_0_0_1_n_n.contr.Idx) :
    (dot_S2048x64_S64x2048_S2048x2048_1_0_0_1_n_n.lhsIdx i q 0).val = (i 0).val := by
  unfold DotDims.lhsIdx
  rw [dif_neg (show ¬(0 : Fin S2048x64.rank) ∈ dot_S2048x64_S64x2048_S2048x2048_1_0_0_1_n_n.lhsBatch by decide), dif_pos (show (0 : Fin S2048x64.rank) ∈ dot_S2048x64_S64x2048_S2048x2048_1_0_0_1_n_n.lhsNonContracting by decide)]
  rfl
theorem lhs_mm_1 (i : S2048x2048.Idx) (q : dot_S2048x64_S64x2048_S2048x2048_1_0_0_1_n_n.contr.Idx) :
    (dot_S2048x64_S64x2048_S2048x2048_1_0_0_1_n_n.lhsIdx i q 1).val = (q ⟨0, by decide⟩).val :=
  dot_S2048x64_S64x2048_S2048x2048_1_0_0_1_n_n.lhsIdx_val_of_single rfl i q
theorem rhs_mm_0 (i : S2048x2048.Idx) (q : dot_S2048x64_S64x2048_S2048x2048_1_0_0_1_n_n.contr.Idx) :
    (dot_S2048x64_S64x2048_S2048x2048_1_0_0_1_n_n.rhsIdx i q 0).val = (q ⟨0, by decide⟩).val :=
  dot_S2048x64_S64x2048_S2048x2048_1_0_0_1_n_n.rhsIdx_val_of_single rfl i q
theorem rhs_mm_1 (i : S2048x2048.Idx) (q : dot_S2048x64_S64x2048_S2048x2048_1_0_0_1_n_n.contr.Idx) :
    (dot_S2048x64_S64x2048_S2048x2048_1_0_0_1_n_n.rhsIdx i q 1).val = (i 1).val := by
  unfold DotDims.rhsIdx
  rw [dif_neg (show ¬(1 : Fin S64x2048.rank) ∈ dot_S2048x64_S64x2048_S2048x2048_1_0_0_1_n_n.rhsBatch by decide), dif_pos (show (1 : Fin S64x2048.rank) ∈ dot_S2048x64_S64x2048_S2048x2048_1_0_0_1_n_n.rhsNonContracting by decide)]
  rfl

/-- The product of a 2048 × 64 matrix and a 64 × 2048 matrix into a zero accumulator, the operands narrowed first (the identity on
    extended reals): at `(r, j)`, the sum over the 64 contracted coordinates. -/
theorem cross_apply (v : FVec Ideal S2048x64 .f32) (w : FVec Ideal S64x2048 .f32) (r j : Fin 2048) :
    matmul dot_S2048x64_S64x2048_S2048x2048_1_0_0_1_n_n none (truncf .bf16 v bitsLt_bf16_f32) (truncf .bf16 w bitsLt_bf16_f32)
        (constant (F := Ideal) S2048x2048 .f32 0x00000000#32) (ix2 r j)
      = ∑ d : Fin 64, v (ix2 r d) * w (ix2 d j) := by
  simp only [matmul]
  rw [Ideal.matmul_constant_zero_apply, ← Equiv.sum_comp (ValueIdx.contrEquiv1 dot_S2048x64_S64x2048_S2048x2048_1_0_0_1_n_n 64 rfl rfl).symm]
  refine Finset.sum_congr rfl fun k _ => ?_
  have hk := ValueIdx.contrEquiv1_symm_val dot_S2048x64_S64x2048_S2048x2048_1_0_0_1_n_n 64 rfl rfl k
  have el : dot_S2048x64_S64x2048_S2048x2048_1_0_0_1_n_n.lhsIdx (ix2 r j) ((ValueIdx.contrEquiv1 dot_S2048x64_S64x2048_S2048x2048_1_0_0_1_n_n 64 rfl rfl).symm k) = ix2 r k := funext fun a => Fin.ext (by
    match a with
    | ⟨0, _⟩ => exact lhs_mm_0 _ _
    | ⟨1, _⟩ => exact (lhs_mm_1 _ _).trans hk)
  have er : dot_S2048x64_S64x2048_S2048x2048_1_0_0_1_n_n.rhsIdx (ix2 r j) ((ValueIdx.contrEquiv1 dot_S2048x64_S64x2048_S2048x2048_1_0_0_1_n_n 64 rfl rfl).symm k) = ix2 k j := funext fun a => Fin.ext (by
    match a with
    | ⟨0, _⟩ => exact (rhs_mm_0 _ _).trans hk
    | ⟨1, _⟩ => exact rhs_mm_1 _ _)
  exact congrArg₂ (· * ·) (congrArg v el) (congrArg w er)

/-! ## The two squared norms, broadcast over the tile -/

/-- The lane sums of the squares of a 2048 × 64 matrix, as a column broadcast over the tile: at `(r, j)`, row `r`'s sum of squares. -/
theorem rowSq_apply (v : FVec Ideal S2048x64 .f32) (r j : Fin 2048) :
    broadcastTo S2048x2048 (shapeCast S2048x1 (multiReduction (F := Ideal) .add [1] S2048 (mulf v v) 0x00000000#32 reduces_S2048x64_S2048 (.inl rfl) rfl)
        shapeCasts_S2048_S2048x1) broadcasts_S2048x1_S2048x2048 (ix2 r j)
      = ∑ d : Fin 64, v (ix2 r d) * v (ix2 r d) := by
  refine (broadcastTo_a1_ab_apply _ _ r j).trans ?_
  refine (shapeCast_a_a1_apply _ _ r (0 : Fin 1)).trans ?_
  refine (Ideal.multiReduction_add_single (mulf v v) 0x00000000#32 reduces_S2048x64_S2048 (.inl rfl) rfl (ix1 r)).trans ?_
  refine Finset.sum_congr rfl fun d _ => ?_
  exact congrArg (fun i => v i * v i) (funext fun a => Fin.ext (by match a with | ⟨0, _⟩ => rfl | ⟨1, _⟩ => rfl))

/-- The sums down the columns of the squares of a 64 × 2048 matrix, as a row broadcast over the tile: at `(r, j)`, column `j`'s sum of
    squares. -/
theorem colSq_apply (w : FVec Ideal S64x2048 .f32) (r j : Fin 2048) :
    broadcastTo S2048x2048 (shapeCast S1x2048 (multiReduction (F := Ideal) .add [0] S2048 (mulf w w) 0x00000000#32 reduces_S64x2048_S2048 (.inl rfl) rfl)
        shapeCasts_S2048_S1x2048) broadcasts_S1x2048_S2048x2048 (ix2 r j)
      = ∑ d : Fin 64, w (ix2 d j) * w (ix2 d j) := by
  refine (broadcastTo_1b_ab_apply _ _ r j).trans ?_
  refine (shapeCast_a_1a_apply _ _ (0 : Fin 1) j).trans ?_
  refine (Ideal.multiReduction_add_single (mulf w w) 0x00000000#32 reduces_S64x2048_S2048 (.inl rfl) rfl (ix1 j)).trans ?_
  refine Finset.sum_congr rfl fun d _ => ?_
  exact congrArg (fun i => w i * w i) (funext fun a => Fin.ext (by match a with | ⟨0, _⟩ => rfl | ⟨1, _⟩ => rfl))

/-! ## Minima from `+∞` along the tile's two axes -/

/-- The float word of `+∞` denotes `⊤`. -/
theorem ofBits_inf_f32 : Ideal.ofBits .f32 0x7F800000#32 = ⊤ := by simp [Ideal.ofBits, Ideal.ieee]

/-- The minima down the columns of a 2048 × 2048 tile, as a row: at `(0, j)`, the minimum from `⊤` over the rows of column `j`. -/
theorem colMin_apply (v : FVec Ideal S2048x2048 .f32) (j : Fin 2048) :
    shapeCast S1x2048 (multiReduction (F := Ideal) .minimumf [0] S2048 v 0x7F800000#32 reduces_S2048x2048_S2048_2 (.inl rfl) rfl)
        shapeCasts_S2048_S1x2048 (ix2 (0 : Fin 1) j)
      = Finset.univ.fold min ⊤ fun r : Fin 2048 => v (ix2 r j) := by
  refine (shapeCast_a_1a_apply _ _ (0 : Fin 1) j).trans ?_
  refine (multiReduction_minimumf_single v 0x7F800000#32 reduces_S2048x2048_S2048_2 (.inl rfl) rfl (ix1 j)).trans ?_
  refine congrArg₂ (fun b f => Finset.fold min b f (Finset.univ : Finset (Fin 2048))) ofBits_inf_f32 (funext fun r => ?_)
  exact congrArg v (funext fun a => Fin.ext (by match a with | ⟨0, _⟩ => rfl | ⟨1, _⟩ => rfl))

/-- The minima along the rows of a 2048 × 2048 tile, as a column: at `(r, 0)`, the minimum from `⊤` over the columns of row `r`. -/
theorem rowMin_apply (v : FVec Ideal S2048x2048 .f32) (r : Fin 2048) :
    shapeCast S2048x1 (multiReduction (F := Ideal) .minimumf [1] S2048 v 0x7F800000#32 reduces_S2048x2048_S2048 (.inl rfl) rfl)
        shapeCasts_S2048_S2048x1 (ix2 r (0 : Fin 1))
      = Finset.univ.fold min ⊤ fun j : Fin 2048 => v (ix2 r j) := by
  refine (shapeCast_a_a1_apply _ _ r (0 : Fin 1)).trans ?_
  refine (multiReduction_minimumf_single v 0x7F800000#32 reduces_S2048x2048_S2048 (.inl rfl) rfl (ix1 r)).trans ?_
  refine congrArg₂ (fun b f => Finset.fold min b f (Finset.univ : Finset (Fin 2048))) ofBits_inf_f32 (funext fun j => ?_)
  exact congrArg v (funext fun a => Fin.ext (by match a with | ⟨0, _⟩ => rfl | ⟨1, _⟩ => rfl))

variable (x0 : Vec Ideal S1x2048x64 .f32) (x1 : Vec Ideal S1x64x2048 .f32)

/-- The tile's clamped squared distance between row `r` of the `x` block and column `j` of the transposed `y` block. -/
def bdist (r j : Fin 2048) : EReal :=
  max ((∑ d : Fin 64, x0 (ix3 (0 : Fin 1) r d) * x0 (ix3 (0 : Fin 1) r d) + ∑ d : Fin 64, x1 (ix3 (0 : Fin 1) d j) * x1 (ix3 (0 : Fin 1) d j))
    - two * ∑ d : Fin 64, x0 (ix3 (0 : Fin 1) r d) * x1 (ix3 (0 : Fin 1) d j)) 0

/-- The float word of `+∞` is `⊤`. -/
theorem inf_eq_top : (Scalar.ofBits (F := Ideal) .f32 0x7F800000#32 : EReal) = ⊤ :=
  ofBits_inf_f32

/-- The distance tile at `(r, j)`. -/
theorem pay9_apply (r j : Fin 2048) : k0_pay9 (F := Ideal) x0 x1 (ix2 r j) = bdist x0 x1 r j := by
  refine (congrArg₂ max (congrArg₂ (· - ·) (congrArg₂ (· + ·) (rowSq_apply _ r j) (colSq_apply _ r j))
    (congrArg (two * ·) (cross_apply _ _ r j))) Ideal.ofBits_zero_f32).trans ?_
  unfold bdist
  simp only [shapeCast_1ab_ab_apply]

/-- The tile's column minima. -/
theorem pay10_apply (j : Fin 2048) :
    k0_pay10 (F := Ideal) x0 x1 (ix2 (0 : Fin 1) j) = Finset.univ.fold min ⊤ fun r : Fin 2048 => bdist x0 x1 r j := by
  refine (colMin_apply (k0_pay9 (F := Ideal) x0 x1) j).trans ?_
  exact congrArg (fun f => Finset.fold min ⊤ f (Finset.univ : Finset (Fin 2048))) (funext fun r => pay9_apply x0 x1 r j)

/-- The row accumulator's update: what was there against the tile's row minimum. -/
theorem pay11_apply (v33 : Vec Ideal S2048x1 .f32) (r : Fin 2048) :
    k0_pay11 (F := Ideal) x0 x1 v33 (ix2 r (0 : Fin 1))
      = min (v33 (ix2 r (0 : Fin 1))) (Finset.univ.fold min ⊤ fun j : Fin 2048 => bdist x0 x1 r j) := by
  refine congrArg (min (v33 (ix2 r (0 : Fin 1)))) ((rowMin_apply (k0_pay9 (F := Ideal) x0 x1) r).trans ?_)
  exact congrArg (fun f => Finset.fold min ⊤ f (Finset.univ : Finset (Fin 2048))) (funext fun j => pay9_apply x0 x1 r j)

/-- A cast to the same shape changes nothing. -/
theorem pay1_eq (v34 : FVec Ideal S2048x1 .f32) : k0_pay1 (F := Ideal) v34 = v34 :=
  shapeCast_self v34 _

/-- The running sum's update: what was there plus the 2048 entries of the row accumulator. -/
theorem pay3_apply (v55 : Vec Ideal S1x1 .f32) (v56 : Vec Ideal S2048x1 .f32) :
    k0_pay3 (F := Ideal) v55 v56 (ix2 (0 : Fin 1) (0 : Fin 1))
      = v55 (ix2 (0 : Fin 1) (0 : Fin 1)) + ∑ r : Fin 2048, v56 (ix2 r (0 : Fin 1)) := by
  simp only [k0_pay3, shapeCast_self]
  refine congrArg (v55 (ix2 (0 : Fin 1) (0 : Fin 1)) + ·) ?_
  refine (shapeCast_a_1a_apply _ _ (0 : Fin 1) (0 : Fin 1)).trans ?_
  refine (Ideal.multiReduction_add_single (φ := .f32) v56 0x00000000#32 reduces_S2048x1_S1 (.inl rfl) rfl (ix1 (0 : Fin 1))).trans ?_
  refine Finset.sum_congr rfl fun k _ => ?_
  exact congrArg v56 (funext fun a => Fin.ext (by match a with | ⟨0, _⟩ => rfl | ⟨1, _⟩ => rfl))

/-- The first output block is the running sum. -/
theorem pay4_apply (v55 : Vec Ideal S1x1 .f32) :
    k0_pay4 (F := Ideal) v55 (ix3 (0 : Fin 1) (0 : Fin 1) (0 : Fin 1)) = v55 (ix2 (0 : Fin 1) (0 : Fin 1)) :=
  shapeCast_ab_1ab_apply v55 _ (0 : Fin 1) (0 : Fin 1) (0 : Fin 1)

/-- The second output block is the sum of the 4096 entries of the column accumulator. -/
theorem pay5_apply (v59 : Vec Ideal S1x4096 .f32) :
    k0_pay5 (F := Ideal) v59 (ix3 (0 : Fin 1) (0 : Fin 1) (0 : Fin 1)) = ∑ j : Fin 4096, v59 (ix2 (0 : Fin 1) j) := by
  simp only [k0_pay5]
  refine (shapeCast_ab_1ab_apply _ _ (0 : Fin 1) (0 : Fin 1) (0 : Fin 1)).trans ?_
  refine (shapeCast_a_1a_apply _ _ (0 : Fin 1) (0 : Fin 1)).trans ?_
  refine (Ideal.multiReduction_add_single (φ := .f32) v59 0x00000000#32 reduces_S1x4096_S1 (.inl rfl) rfl (ix1 (0 : Fin 1))).trans ?_
  refine Finset.sum_congr rfl fun k _ => ?_
  exact congrArg v59 (funext fun a => Fin.ext (by match a with | ⟨0, _⟩ => rfl | ⟨1, _⟩ => rfl))

/-- The running sum is reset to zero. -/
theorem pay7_apply (y : S1x1.Idx) : k0_pay7 (F := Ideal) y = 0 := by
  simp only [k0_pay7, shapeCast_self]
  exact Ideal.ofBits_zero_f32

/-- The row accumulator is reset to `+∞`. -/
theorem pay8_apply (y : S2048x1.Idx) : k0_pay8 (F := Ideal) y = ⊤ := by
  simp only [k0_pay8, shapeCast_self]
  exact ofBits_inf_f32

end Cert.KernelIdeal.Pay

end
-- ==== Proof.Blocks.lean ====
/-
  The grid and the input blocks.

  The 64 grid points are (batch b, row half n, column half h) in row-major order: point `4b + 2n + h`.  At that point the
  first window holds rows `2048 n … 2048 n + 2047` of batch `b` of the first argument, and the second window holds columns
  `2048 h …` of batch `b` of the second argument TRANSPOSED (the transpose is the one host operation before the kernel):
  its element (d, j) is coordinate `d` of point `2048 h + j`.  So the tile of distances the body forms there is the
  specification's distance between those points, and its row and column minima are the specification's tile minima.
-/
import proofs.«131100_j51814485459453_1_alg».proof.Proof.Gen.KernelIdeal.Frame
import proofs.«131100_j51814485459453_1_alg».proof.Proof.Spec
import proofs.«131100_j51814485459453_1_alg».proof.Proof.Pay
import Idealize.ShloMosaic.Lib.Pipeline.Value
import Idealize.ShloMosaic.Lib.StableHlo.Run
import Idealize.ShloMosaic.Lib.ValueIdx
import Idealize.ShloMosaic.Lib.Tactic

noncomputable section

open scoped BigOperators
open Idealize.ShloMosaic Idealize.ShloMosaic.TcCoe Idealize.SL.Sem
open Idealize.ShloMosaic.Pipeline (Dat)

namespace Cert.KernelIdeal.Blocks

open Cert.KernelIdeal Cert.KernelIdeal.Gen Idealize.ShloMosaic.ValueIdx Cert.Chamfer

variable (m : (ℓ : Loc nD τ sig) → Buf (Elt Ideal) ℓ)

/-- The first cloud, as launched. -/
abbrev X (c : Dev nD) : Pts := m ((c : Thread nD τ).loc main_arg0)
/-- The second cloud, as launched. -/
abbrev Y (c : Dev nD) : Pts := m ((c : Thread nD τ).loc main_arg1)

/-- The block of the first window at a point, and of the second. -/
abbrev xb (c : Dev nD) (t : Fin cfg0.N) : Vec Ideal S1x2048x64 .f32 := iblk m c 0 t
abbrev yb (c : Dev nD) (t : Fin cfg0.N) : Vec Ideal S1x64x2048 .f32 := iblk m c 1 t

/-- The grid's coordinates and the two input windows' block indices at point `t`: decided over the 64 points. -/
theorem grid_facts : ∀ t : Fin cfg0.N,
    ((grid0.coords t 2).val = t.val % 2)
    ∧ (win0_0.index t 0 = t.val / 4 ∧ win0_0.index t 1 = t.val / 2 % 2 ∧ win0_0.index t 2 = 0)
    ∧ (win0_1.index t 0 = t.val / 4 ∧ win0_1.index t 1 = 0 ∧ win0_1.index t 2 = t.val % 2) :=
  (by decide +kernel : ∀ t : Fin grid0.N, _)

/-- The array the second window stages is the second argument transposed. -/
theorem V_yt (c : Dev nD) :
    (V m c main_v0 : S16x64x4096.Idx → EReal)
      = transpose S16x64x4096 [0, 2, 1] (m ((c : Thread nD τ).loc main_arg1)) transposes_S16x4096x64_S16x64x4096_0_2_1 := by
  show StableHlo.after hostOps0 (fun b => m (c, b)) (Proc.devRef .tc main_v0) = _
  after_results

/-- Row `r`, coordinate `d` of the first window's block at point `4b + 2n + h`. -/
theorem xb_apply (c : Dev nD) (t : Fin cfg0.N) (b : Fin 16) (n h : Fin 2) (ht : t.val = 4 * b.val + 2 * n.val + h.val)
    (r : Fin 2048) (d : Fin 64) : xb m c t (ix3 (0 : Fin 1) r d) = X m c (ix3 b (pt n r) d) := by
  obtain ⟨-, ⟨e0, e1, e2⟩, -⟩ := grid_facts t
  have hn := n.isLt; have hh := h.isLt
  show iblk m c 0 t (ix3 (0 : Fin 1) r d) = _
  unfold iblk
  rw [View.read_apply]
  show V m c main_arg0 _ = m (c.tc.loc main_arg0) _
  rw [V_main_arg0]
  congr 1
  funext a
  apply Fin.ext
  match a with
  | ⟨0, _⟩ => show win0_0.index t 0 * 1 + 1 * 0 = b.val; rw [e0]; omega
  | ⟨1, _⟩ => show win0_0.index t 1 * 2048 + 1 * r.val = 2048 * n.val + r.val; rw [e1]; omega
  | ⟨2, _⟩ => show win0_0.index t 2 * 64 + 1 * d.val = d.val; rw [e2]; omega

/-- Coordinate `d`, column `j` of the second window's block at point `4b + 2n + h`. -/
theorem yb_apply (c : Dev nD) (t : Fin cfg0.N) (b : Fin 16) (n h : Fin 2) (ht : t.val = 4 * b.val + 2 * n.val + h.val)
    (d : Fin 64) (j : Fin 2048) : yb m c t (ix3 (0 : Fin 1) d j) = Y m c (ix3 b (pt h j) d) := by
  obtain ⟨-, -, ⟨e0, e1, e2⟩⟩ := grid_facts t
  have hn := n.isLt; have hh := h.isLt
  show iblk m c 1 t (ix3 (0 : Fin 1) d j) = _
  unfold iblk
  rw [View.read_apply]
  show V m c main_v0 _ = m (c.tc.loc main_arg1) _
  rw [V_yt]
  refine (transpose_apply [0, 2, 1] _ transposes_S16x4096x64_S16x64x4096_0_2_1 _ (ix3 b (pt h j) d) (fun a => ?_)).trans rfl
  match a with
  | ⟨0, _⟩ => show b.val = win0_1.index t 0 * 1 + 1 * 0; rw [e0]; omega
  | ⟨1, _⟩ => show d.val = win0_1.index t 1 * 64 + 1 * d.val; rw [e1]; omega
  | ⟨2, _⟩ => show 2048 * h.val + j.val = win0_1.index t 2 * 2048 + 1 * j.val; rw [e2]; omega

/-- The body's distance tile at point `4b + 2n + h` is the specification's distance between the points of the two halves. -/
theorem bdist_tile (c : Dev nD) (t : Fin cfg0.N) (b : Fin 16) (n h : Fin 2) (ht : t.val = 4 * b.val + 2 * n.val + h.val)
    (r j : Fin 2048) : Pay.bdist (xb m c t) (yb m c t) r j = Chamfer.dist (X m c) (Y m c) b (pt n r) (pt h j) := by
  unfold Pay.bdist Chamfer.dist Chamfer.sq Chamfer.dot
  simp only [xb_apply m c t b n h ht, yb_apply m c t b n h ht]

/-- Its row minima … -/
theorem rowmin_tile (c : Dev nD) (t : Fin cfg0.N) (b : Fin 16) (n h : Fin 2) (ht : t.val = 4 * b.val + 2 * n.val + h.val)
    (r : Fin 2048) :
    (Finset.univ.fold min ⊤ fun j : Fin 2048 => Pay.bdist (xb m c t) (yb m c t) r j) = tileRow (X m c) (Y m c) b n h r := by
  unfold tileRow
  exact congrArg (Finset.univ.fold min ⊤) (funext fun j => bdist_tile m c t b n h ht r j)

/-- … and its column minima. -/
theorem colmin_tile (c : Dev nD) (t : Fin cfg0.N) (b : Fin 16) (n h : Fin 2) (ht : t.val = 4 * b.val + 2 * n.val + h.val)
    (j : Fin 2048) :
    (Finset.univ.fold min ⊤ fun r : Fin 2048 => Pay.bdist (xb m c t) (yb m c t) r j) = tileCol (X m c) (Y m c) b n h j := by
  unfold tileCol
  exact congrArg (Finset.univ.fold min ⊤) (funext fun r => bdist_tile m c t b n h ht r j)

end Cert.KernelIdeal.Blocks

end
-- ==== Proof.Pieces.lean ====
import proofs.«131100_j51814485459453_1_alg».proof.Proof.Gen.KernelIdeal.Frame
import Idealize.ShloMosaic.Lib.Pipeline.Value
import Idealize.ShloMosaic.Lib.WritesUnit
import Idealize.ShloMosaic.Lib.Tactic
import Idealize.ShloMosaic.Lib.ValueIdx
import proofs.«131100_j51814485459453_1_alg».proof.Proof.Spec

noncomputable section

open Idealize.ShloMosaic Idealize.ShloMosaic.TcCoe Idealize.SL.Sem
open Idealize.ShloMosaic.Pipeline (Dat)

/-! What each of the four control cases of the kernel body leaves in its three carried accumulators and, at a batch's last
   grid point, in the two output blocks — as the body's own payload terms applied to the input blocks and to what the
   point before left.  The row accumulator (2048×1) and the running sum (1×1) are stored whole; the column accumulator
   (1×4096) is reset whole at a batch's first point and otherwise updated only on the 2048 columns of the current half, so
   it is read one element at a time: a column of the current half holds the update, any other column what was there. -/

namespace Cert.KernelIdeal.Pieces

open Cert.KernelIdeal Cert.KernelIdeal.Gen Idealize.ShloMosaic.ValueIdx Cert.Chamfer

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- The column accumulator's update starts at column 0 on the first half of the columns … -/
theorem off_first (i : grid0.Coords) (hm : (i 2).val = 0) : k0_off1 i = ![0, 0] := by
  unfold k0_off1; simp only [hm]; rfl
/-- … and at column 2048 on the second. -/
theorem off_second (i : grid0.Coords) (hm : (i 2).val = 1) : k0_off1 i = ![0, 2048] := by
  unfold k0_off1; simp only [hm]; rfl

/-- An element of a unit-stride rectangle sits at the offsets plus its own coordinates. -/
theorem unit_idx_eq {s : Shape} {off off' size : Fin s.rank → ℕ} (inb : ∀ a, off a + size a ≤ s.size a)
    (x : (Rect.unit off size inb).shape.Idx) (y : s.Idx) (heq : off = off') (hx : ∀ a, (y a).val = off' a + (x a).val) :
    (Rect.unit off size inb).idx x = y := by
  subst heq
  exact funext fun a => Fin.ext (by show off a + 1 * (x a).val = (y a).val; rw [hx a, Nat.one_mul])

/-- The reset value of the two minimum accumulators is `+∞` everywhere. -/
theorem pay6_apply (y : S1x4096.Idx) : k0_pay6 (F := F) y = (Scalar.ofBits (F := F) .f32 0x7F800000#32) := by
  unfold k0_pay6; rw [shapeCast_self]; rfl

/-- The column update is the elementwise minimum of what was there and the half's column minima. -/
theorem pay2_apply (v32 : FVec F S1x2048 .f32) (v41 : Vec F S1x2048 .f32) (y : S1x2048.Idx) :
    k0_pay2 v32 v41 y = FloatOps.minimumf (v41 y) (v32 y) := by
  unfold k0_pay2; rw [shapeCast_self]; rfl

/-! ## The row accumulator and the running sum (whole stores) -/

theorem sout0_A_0_eq (c : Dev nD) (i : grid0.Coords) (arg3 : Memref sig .tc .vmem S1x2048x64 .f32) (harg3 : arg3.IsWhole) (arg4 : Memref sig .tc .vmem S1x64x2048 .f32) (harg4 : arg4.IsWhole) (arg5 : Memref sig .tc .vmem S1x1x1 .f32) (harg5 : arg5.IsWhole) (arg6 : Memref sig .tc .vmem S1x1x1 .f32) (harg6 : arg6.IsWhole) (arg7 : Memref sig .tc .vmem S2048x1 .f32) (harg7 : arg7.IsWhole) (arg8 : Memref sig .tc .vmem S1x4096 .f32) (harg8 : arg8.IsWhole) (arg9 : Memref sig .tc .vmem S1x1 .f32) (harg9 : arg9.IsWhole) (hc0 : cond0_0 i) (hc1 : cond0_1 i) (hc2 : ¬cond0_2 i) (hc3 : ¬cond0_3 i) (x0 : Vec F S1x2048x64 .f32) (x1 : Vec F S1x64x2048 .f32) :
    sout0_A_0 c i arg3 harg3 arg4 harg4 arg5 harg5 arg6 harg6 arg7 harg7 arg8 harg8 arg9 harg9 hc0 hc1 hc2 hc3 x0 x1 = k0_pay1 (k0_pay11 x0 x1 (k0_pay8 (F := F))) := by
  unfold sout0_A_0
  rw [View.read_writes_eq_canon _ _ _ (scover0_A_0 c i arg3 harg3 arg4 harg4 arg5 harg5 arg6 harg6 arg7 harg7 arg8 harg8 arg9 harg9 hc0 hc1 hc2 hc3 x0 x1)]
  unfold kernelRun0_A
  dsimp only
  sl_unfold_words
  rw [View.canon_cons_unit_zero (S := S2048x1) hz2]
  simp only [View.readAt_eq_ld, harg3.read_unread, harg4.read_unread, harg7.read_unread, harg8.read_unread, harg9.read_unread, View.ld_unit_zero (S := S1x2048x64) hz3, View.ld_unit_zero (S := S1x64x2048) hz3, View.ld_unit_zero (S := S2048x1) hz2, View.ld_unit_zero (S := S1x1) hz2, View.ld_unit_zero (S := S1x4096) hz2, View.readCov_unit_zero (S := S2048x1) _ hz2, View.readCov_unit_zero (S := S1x1) _ hz2]

theorem sout0_A_2_eq (c : Dev nD) (i : grid0.Coords) (arg3 : Memref sig .tc .vmem S1x2048x64 .f32) (harg3 : arg3.IsWhole) (arg4 : Memref sig .tc .vmem S1x64x2048 .f32) (harg4 : arg4.IsWhole) (arg5 : Memref sig .tc .vmem S1x1x1 .f32) (harg5 : arg5.IsWhole) (arg6 : Memref sig .tc .vmem S1x1x1 .f32) (harg6 : arg6.IsWhole) (arg7 : Memref sig .tc .vmem S2048x1 .f32) (harg7 : arg7.IsWhole) (arg8 : Memref sig .tc .vmem S1x4096 .f32) (harg8 : arg8.IsWhole) (arg9 : Memref sig .tc .vmem S1x1 .f32) (harg9 : arg9.IsWhole) (hc0 : cond0_0 i) (hc1 : cond0_1 i) (hc2 : ¬cond0_2 i) (hc3 : ¬cond0_3 i) (x0 : Vec F S1x2048x64 .f32) (x1 : Vec F S1x64x2048 .f32) :
    sout0_A_2 c i arg3 harg3 arg4 harg4 arg5 harg5 arg6 harg6 arg7 harg7 arg8 harg8 arg9 harg9 hc0 hc1 hc2 hc3 x0 x1 = k0_pay7 (F := F) := by
  unfold sout0_A_2
  rw [View.read_writes_eq_canon _ _ _ (scover0_A_2 c i arg3 harg3 arg4 harg4 arg5 harg5 arg6 harg6 arg7 harg7 arg8 harg8 arg9 harg9 hc0 hc1 hc2 hc3 x0 x1)]
  unfold kernelRun0_A
  dsimp only
  sl_unfold_words
  rw [View.canon_unit_zero (S := S1x1) hz2]

theorem sout0_B_0_eq (c : Dev nD) (i : grid0.Coords) (arg3 : Memref sig .tc .vmem S1x2048x64 .f32) (harg3 : arg3.IsWhole) (arg4 : Memref sig .tc .vmem S1x64x2048 .f32) (harg4 : arg4.IsWhole) (arg5 : Memref sig .tc .vmem S1x1x1 .f32) (harg5 : arg5.IsWhole) (arg6 : Memref sig .tc .vmem S1x1x1 .f32) (harg6 : arg6.IsWhole) (arg7 : Memref sig .tc .vmem S2048x1 .f32) (harg7 : arg7.IsWhole) (arg8 : Memref sig .tc .vmem S1x4096 .f32) (harg8 : arg8.IsWhole) (arg9 : Memref sig .tc .vmem S1x1 .f32) (harg9 : arg9.IsWhole) (hc0 : ¬cond0_0 i) (hc1 : ¬cond0_1 i) (hc2 : cond0_2 i) (hc3 : ¬cond0_3 i) (x0 : Vec F S1x2048x64 .f32) (x1 : Vec F S1x64x2048 .f32) (xs0 : Vec F S2048x1 .f32) (xs1 : Vec F S1x4096 .f32) (xs2 : Vec F S1x1 .f32) :
    sout0_B_0 c i arg3 harg3 arg4 harg4 arg5 harg5 arg6 harg6 arg7 harg7 arg8 harg8 arg9 harg9 hc0 hc1 hc2 hc3 x0 x1 xs0 xs1 xs2 = k0_pay1 (k0_pay11 x0 x1 xs0) := by
  unfold sout0_B_0
  rw [View.read_writes_eq_canon _ _ _ (scover0_B_0 c i arg3 harg3 arg4 harg4 arg5 harg5 arg6 harg6 arg7 harg7 arg8 harg8 arg9 harg9 hc0 hc1 hc2 hc3 x0 x1 xs0 xs1 xs2)]
  unfold kernelRun0_B
  dsimp only
  sl_unfold_words
  rw [View.canon_unit_zero (S := S2048x1) hz2]
  simp only [View.readAt_eq_ld, harg3.read_unread, harg4.read_unread, harg7.read_unread, harg8.read_unread, harg9.read_unread, View.ld_unit_zero (S := S1x2048x64) hz3, View.ld_unit_zero (S := S1x64x2048) hz3, View.ld_unit_zero (S := S2048x1) hz2, View.ld_unit_zero (S := S1x1) hz2, View.ld_unit_zero (S := S1x4096) hz2, View.readCov_unit_zero (S := S2048x1) _ hz2, View.readCov_unit_zero (S := S1x1) _ hz2]

theorem sout0_B_2_eq (c : Dev nD) (i : grid0.Coords) (arg3 : Memref sig .tc .vmem S1x2048x64 .f32) (harg3 : arg3.IsWhole) (arg4 : Memref sig .tc .vmem S1x64x2048 .f32) (harg4 : arg4.IsWhole) (arg5 : Memref sig .tc .vmem S1x1x1 .f32) (harg5 : arg5.IsWhole) (arg6 : Memref sig .tc .vmem S1x1x1 .f32) (harg6 : arg6.IsWhole) (arg7 : Memref sig .tc .vmem S2048x1 .f32) (harg7 : arg7.IsWhole) (arg8 : Memref sig .tc .vmem S1x4096 .f32) (harg8 : arg8.IsWhole) (arg9 : Memref sig .tc .vmem S1x1 .f32) (harg9 : arg9.IsWhole) (hc0 : ¬cond0_0 i) (hc1 : ¬cond0_1 i) (hc2 : cond0_2 i) (hc3 : ¬cond0_3 i) (x0 : Vec F S1x2048x64 .f32) (x1 : Vec F S1x64x2048 .f32) (xs0 : Vec F S2048x1 .f32) (xs1 : Vec F S1x4096 .f32) (xs2 : Vec F S1x1 .f32) :
    sout0_B_2 c i arg3 harg3 arg4 harg4 arg5 harg5 arg6 harg6 arg7 harg7 arg8 harg8 arg9 harg9 hc0 hc1 hc2 hc3 x0 x1 xs0 xs1 xs2 = k0_pay3 xs2 (k0_pay1 (k0_pay11 x0 x1 xs0)) := by
  unfold sout0_B_2
  rw [View.read_writes_eq_canon _ _ _ (scover0_B_2 c i arg3 harg3 arg4 harg4 arg5 harg5 arg6 harg6 arg7 harg7 arg8 harg8 arg9 harg9 hc0 hc1 hc2 hc3 x0 x1 xs0 xs1 xs2)]
  unfold kernelRun0_B
  dsimp only
  sl_unfold_words
  rw [View.canon_unit_zero (S := S1x1) hz2]
  simp only [View.readAt_eq_ld, harg3.read_unread, harg4.read_unread, harg7.read_unread, harg8.read_unread, harg9.read_unread, View.ld_unit_zero (S := S1x2048x64) hz3, View.ld_unit_zero (S := S1x64x2048) hz3, View.ld_unit_zero (S := S2048x1) hz2, View.ld_unit_zero (S := S1x1) hz2, View.ld_unit_zero (S := S1x4096) hz2, View.readCov_unit_zero (S := S2048x1) _ hz2, View.readCov_unit_zero (S := S1x1) _ hz2]

theorem sout0_C_0_eq (c : Dev nD) (i : grid0.Coords) (arg3 : Memref sig .tc .vmem S1x2048x64 .f32) (harg3 : arg3.IsWhole) (arg4 : Memref sig .tc .vmem S1x64x2048 .f32) (harg4 : arg4.IsWhole) (arg5 : Memref sig .tc .vmem S1x1x1 .f32) (harg5 : arg5.IsWhole) (arg6 : Memref sig .tc .vmem S1x1x1 .f32) (harg6 : arg6.IsWhole) (arg7 : Memref sig .tc .vmem S2048x1 .f32) (harg7 : arg7.IsWhole) (arg8 : Memref sig .tc .vmem S1x4096 .f32) (harg8 : arg8.IsWhole) (arg9 : Memref sig .tc .vmem S1x1 .f32) (harg9 : arg9.IsWhole) (hc0 : ¬cond0_0 i) (hc1 : cond0_1 i) (hc2 : ¬cond0_2 i) (hc3 : ¬cond0_3 i) (x0 : Vec F S1x2048x64 .f32) (x1 : Vec F S1x64x2048 .f32) (xs1 : Vec F S1x4096 .f32) (xs2 : Vec F S1x1 .f32) :
    sout0_C_0 c i arg3 harg3 arg4 harg4 arg5 harg5 arg6 harg6 arg7 harg7 arg8 harg8 arg9 harg9 hc0 hc1 hc2 hc3 x0 x1 xs1 xs2 = k0_pay1 (k0_pay11 x0 x1 (k0_pay8 (F := F))) := by
  unfold sout0_C_0
  rw [View.read_writes_eq_canon _ _ _ (scover0_C_0 c i arg3 harg3 arg4 harg4 arg5 harg5 arg6 harg6 arg7 harg7 arg8 harg8 arg9 harg9 hc0 hc1 hc2 hc3 x0 x1 xs1 xs2)]
  unfold kernelRun0_C
  dsimp only
  sl_unfold_words
  rw [View.canon_cons_unit_zero (S := S2048x1) hz2]
  simp only [View.readAt_eq_ld, harg3.read_unread, harg4.read_unread, harg7.read_unread, harg8.read_unread, harg9.read_unread, View.ld_unit_zero (S := S1x2048x64) hz3, View.ld_unit_zero (S := S1x64x2048) hz3, View.ld_unit_zero (S := S2048x1) hz2, View.ld_unit_zero (S := S1x1) hz2, View.ld_unit_zero (S := S1x4096) hz2, View.readCov_unit_zero (S := S2048x1) _ hz2, View.readCov_unit_zero (S := S1x1) _ hz2]

theorem sout0_C_2_eq (c : Dev nD) (i : grid0.Coords) (arg3 : Memref sig .tc .vmem S1x2048x64 .f32) (harg3 : arg3.IsWhole) (arg4 : Memref sig .tc .vmem S1x64x2048 .f32) (harg4 : arg4.IsWhole) (arg5 : Memref sig .tc .vmem S1x1x1 .f32) (harg5 : arg5.IsWhole) (arg6 : Memref sig .tc .vmem S1x1x1 .f32) (harg6 : arg6.IsWhole) (arg7 : Memref sig .tc .vmem S2048x1 .f32) (harg7 : arg7.IsWhole) (arg8 : Memref sig .tc .vmem S1x4096 .f32) (harg8 : arg8.IsWhole) (arg9 : Memref sig .tc .vmem S1x1 .f32) (harg9 : arg9.IsWhole) (hc0 : ¬cond0_0 i) (hc1 : cond0_1 i) (hc2 : ¬cond0_2 i) (hc3 : ¬cond0_3 i) (x0 : Vec F S1x2048x64 .f32) (x1 : Vec F S1x64x2048 .f32) (xs1 : Vec F S1x4096 .f32) (xs2 : Vec F S1x1 .f32) :
    sout0_C_2 c i arg3 harg3 arg4 harg4 arg5 harg5 arg6 harg6 arg7 harg7 arg8 harg8 arg9 harg9 hc0 hc1 hc2 hc3 x0 x1 xs1 xs2 = xs2 := rfl

theorem sout0_D_0_eq (c : Dev nD) (i : grid0.Coords) (arg3 : Memref sig .tc .vmem S1x2048x64 .f32) (harg3 : arg3.IsWhole) (arg4 : Memref sig .tc .vmem S1x64x2048 .f32) (harg4 : arg4.IsWhole) (arg5 : Memref sig .tc .vmem S1x1x1 .f32) (harg5 : arg5.IsWhole) (arg6 : Memref sig .tc .vmem S1x1x1 .f32) (harg6 : arg6.IsWhole) (arg7 : Memref sig .tc .vmem S2048x1 .f32) (harg7 : arg7.IsWhole) (arg8 : Memref sig .tc .vmem S1x4096 .f32) (harg8 : arg8.IsWhole) (arg9 : Memref sig .tc .vmem S1x1 .f32) (harg9 : arg9.IsWhole) (hc0 : ¬cond0_0 i) (hc1 : ¬cond0_1 i) (hc2 : cond0_2 i) (hc3 : cond0_3 i) (x0 : Vec F S1x2048x64 .f32) (x1 : Vec F S1x64x2048 .f32) (xs0 : Vec F S2048x1 .f32) (xs1 : Vec F S1x4096 .f32) (xs2 : Vec F S1x1 .f32) :
    sout0_D_0 c i arg3 harg3 arg4 harg4 arg5 harg5 arg6 harg6 arg7 harg7 arg8 harg8 arg9 harg9 hc0 hc1 hc2 hc3 x0 x1 xs0 xs1 xs2 = k0_pay1 (k0_pay11 x0 x1 xs0) := by
  unfold sout0_D_0
  rw [View.read_writes_eq_canon _ _ _ (scover0_D_0 c i arg3 harg3 arg4 harg4 arg5 harg5 arg6 harg6 arg7 harg7 arg8 harg8 arg9 harg9 hc0 hc1 hc2 hc3 x0 x1 xs0 xs1 xs2)]
  unfold kernelRun0_D
  dsimp only
  sl_unfold_words
  rw [View.canon_unit_zero (S := S2048x1) hz2]
  simp only [View.readAt_eq_ld, harg3.read_unread, harg4.read_unread, harg7.read_unread, harg8.read_unread, harg9.read_unread, View.ld_unit_zero (S := S1x2048x64) hz3, View.ld_unit_zero (S := S1x64x2048) hz3, View.ld_unit_zero (S := S2048x1) hz2, View.ld_unit_zero (S := S1x1) hz2, View.ld_unit_zero (S := S1x4096) hz2, View.readCov_unit_zero (S := S2048x1) _ hz2, View.readCov_unit_zero (S := S1x1) _ hz2]

theorem sout0_D_2_eq (c : Dev nD) (i : grid0.Coords) (arg3 : Memref sig .tc .vmem S1x2048x64 .f32) (harg3 : arg3.IsWhole) (arg4 : Memref sig .tc .vmem S1x64x2048 .f32) (harg4 : arg4.IsWhole) (arg5 : Memref sig .tc .vmem S1x1x1 .f32) (harg5 : arg5.IsWhole) (arg6 : Memref sig .tc .vmem S1x1x1 .f32) (harg6 : arg6.IsWhole) (arg7 : Memref sig .tc .vmem S2048x1 .f32) (harg7 : arg7.IsWhole) (arg8 : Memref sig .tc .vmem S1x4096 .f32) (harg8 : arg8.IsWhole) (arg9 : Memref sig .tc .vmem S1x1 .f32) (harg9 : arg9.IsWhole) (hc0 : ¬cond0_0 i) (hc1 : ¬cond0_1 i) (hc2 : cond0_2 i) (hc3 : cond0_3 i) (x0 : Vec F S1x2048x64 .f32) (x1 : Vec F S1x64x2048 .f32) (xs0 : Vec F S2048x1 .f32) (xs1 : Vec F S1x4096 .f32) (xs2 : Vec F S1x1 .f32) :
    sout0_D_2 c i arg3 harg3 arg4 harg4 arg5 harg5 arg6 harg6 arg7 harg7 arg8 harg8 arg9 harg9 hc0 hc1 hc2 hc3 x0 x1 xs0 xs1 xs2 = k0_pay3 xs2 (k0_pay1 (k0_pay11 x0 x1 xs0)) := by
  unfold sout0_D_2
  rw [View.read_writes_eq_canon _ _ _ (scover0_D_2 c i arg3 harg3 arg4 harg4 arg5 harg5 arg6 harg6 arg7 harg7 arg8 harg8 arg9 harg9 hc0 hc1 hc2 hc3 x0 x1 xs0 xs1 xs2)]
  unfold kernelRun0_D
  dsimp only
  sl_unfold_words
  rw [View.canon_unit_zero (S := S1x1) hz2]
  simp only [View.readAt_eq_ld, harg3.read_unread, harg4.read_unread, harg7.read_unread, harg8.read_unread, harg9.read_unread, View.ld_unit_zero (S := S1x2048x64) hz3, View.ld_unit_zero (S := S1x64x2048) hz3, View.ld_unit_zero (S := S2048x1) hz2, View.ld_unit_zero (S := S1x1) hz2, View.ld_unit_zero (S := S1x4096) hz2, View.readCov_unit_zero (S := S2048x1) _ hz2, View.readCov_unit_zero (S := S1x1) _ hz2]

/-! ## The two output blocks at a batch's last point -/

theorem out0_D_2_eq (c : Dev nD) (i : grid0.Coords) (arg3 : Memref sig .tc .vmem S1x2048x64 .f32) (harg3 : arg3.IsWhole) (arg4 : Memref sig .tc .vmem S1x64x2048 .f32) (harg4 : arg4.IsWhole) (arg5 : Memref sig .tc .vmem S1x1x1 .f32) (harg5 : arg5.IsWhole) (arg6 : Memref sig .tc .vmem S1x1x1 .f32) (harg6 : arg6.IsWhole) (arg7 : Memref sig .tc .vmem S2048x1 .f32) (harg7 : arg7.IsWhole) (arg8 : Memref sig .tc .vmem S1x4096 .f32) (harg8 : arg8.IsWhole) (arg9 : Memref sig .tc .vmem S1x1 .f32) (harg9 : arg9.IsWhole) (hc0 : ¬cond0_0 i) (hc1 : ¬cond0_1 i) (hc2 : cond0_2 i) (hc3 : cond0_3 i) (x0 : Vec F S1x2048x64 .f32) (x1 : Vec F S1x64x2048 .f32) (xs0 : Vec F S2048x1 .f32) (xs1 : Vec F S1x4096 .f32) (xs2 : Vec F S1x1 .f32) :
    out0_D_2 c i arg3 harg3 arg4 harg4 arg5 harg5 arg6 harg6 arg7 harg7 arg8 harg8 arg9 harg9 hc0 hc1 hc2 hc3 x0 x1 xs0 xs1 xs2 = k0_pay4 (k0_pay3 xs2 (k0_pay1 (k0_pay11 x0 x1 xs0))) := by
  unfold out0_D_2
  rw [View.read_writes_eq_canon _ _ _ (cover0_D_2 c i arg3 harg3 arg4 harg4 arg5 harg5 arg6 harg6 arg7 harg7 arg8 harg8 arg9 harg9 hc0 hc1 hc2 hc3 x0 x1 xs0 xs1 xs2)]
  unfold kernelRun0_D
  dsimp only
  sl_unfold_words
  rw [View.canon_unit_zero (S := S1x1x1) hz3]
  simp only [View.readAt_eq_ld, harg3.read_unread, harg4.read_unread, harg7.read_unread, harg8.read_unread, harg9.read_unread, View.ld_unit_zero (S := S1x2048x64) hz3, View.ld_unit_zero (S := S1x64x2048) hz3, View.ld_unit_zero (S := S2048x1) hz2, View.ld_unit_zero (S := S1x1) hz2, View.ld_unit_zero (S := S1x4096) hz2, View.readCov_unit_zero (S := S2048x1) _ hz2, View.readCov_unit_zero (S := S1x1) _ hz2]

theorem out0_D_3_eq (c : Dev nD) (i : grid0.Coords) (arg3 : Memref sig .tc .vmem S1x2048x64 .f32) (harg3 : arg3.IsWhole) (arg4 : Memref sig .tc .vmem S1x64x2048 .f32) (harg4 : arg4.IsWhole) (arg5 : Memref sig .tc .vmem S1x1x1 .f32) (harg5 : arg5.IsWhole) (arg6 : Memref sig .tc .vmem S1x1x1 .f32) (harg6 : arg6.IsWhole) (arg7 : Memref sig .tc .vmem S2048x1 .f32) (harg7 : arg7.IsWhole) (arg8 : Memref sig .tc .vmem S1x4096 .f32) (harg8 : arg8.IsWhole) (arg9 : Memref sig .tc .vmem S1x1 .f32) (harg9 : arg9.IsWhole) (hc0 : ¬cond0_0 i) (hc1 : ¬cond0_1 i) (hc2 : cond0_2 i) (hc3 : cond0_3 i) (x0 : Vec F S1x2048x64 .f32) (x1 : Vec F S1x64x2048 .f32) (xs0 : Vec F S2048x1 .f32) (xs1 : Vec F S1x4096 .f32) (xs2 : Vec F S1x1 .f32) :
    out0_D_3 c i arg3 harg3 arg4 harg4 arg5 harg5 arg6 harg6 arg7 harg7 arg8 harg8 arg9 harg9 hc0 hc1 hc2 hc3 x0 x1 xs0 xs1 xs2 = k0_pay5 (sout0_D_1 c i arg3 harg3 arg4 harg4 arg5 harg5 arg6 harg6 arg7 harg7 arg8 harg8 arg9 harg9 hc0 hc1 hc2 hc3 x0 x1 xs0 xs1 xs2) := by
  unfold out0_D_3 sout0_D_1
  rw [View.read_writes_eq_canon _ _ _ (cover0_D_3 c i arg3 harg3 arg4 harg4 arg5 harg5 arg6 harg6 arg7 harg7 arg8 harg8 arg9 harg9 hc0 hc1 hc2 hc3 x0 x1 xs0 xs1 xs2)]
  unfold kernelRun0_D
  dsimp only
  sl_unfold_words
  rw [View.canon_unit_zero (S := S1x1x1) hz3]
  simp only [View.readAt_eq_ld, View.ld_unit_zero (S := S1x4096) hz2]

/-! ## The column accumulator, one column at a time -/

theorem sout0_A_1_lo (c : Dev nD) (i : grid0.Coords) (arg3 : Memref sig .tc .vmem S1x2048x64 .f32) (harg3 : arg3.IsWhole) (arg4 : Memref sig .tc .vmem S1x64x2048 .f32) (harg4 : arg4.IsWhole) (arg5 : Memref sig .tc .vmem S1x1x1 .f32) (harg5 : arg5.IsWhole) (arg6 : Memref sig .tc .vmem S1x1x1 .f32) (harg6 : arg6.IsWhole) (arg7 : Memref sig .tc .vmem S2048x1 .f32) (harg7 : arg7.IsWhole) (arg8 : Memref sig .tc .vmem S1x4096 .f32) (harg8 : arg8.IsWhole) (arg9 : Memref sig .tc .vmem S1x1 .f32) (harg9 : arg9.IsWhole) (hc0 : cond0_0 i) (hc1 : cond0_1 i) (hc2 : ¬cond0_2 i) (hc3 : ¬cond0_3 i) (x0 : Vec F S1x2048x64 .f32) (x1 : Vec F S1x64x2048 .f32) (hm : (i 2).val = 0) (j : Fin 2048) :
    sout0_A_1 c i arg3 harg3 arg4 harg4 arg5 harg5 arg6 harg6 arg7 harg7 arg8 harg8 arg9 harg9 hc0 hc1 hc2 hc3 x0 x1 (ix2 (0 : Fin 1) (pt 0 j)) = FloatOps.minimumf (Scalar.ofBits (F := F) .f32 0x7F800000#32) (k0_pay10 x0 x1 (ix2 (0 : Fin 1) j)) := by
  unfold sout0_A_1 kernelRun0_A
  dsimp only
  sl_unfold_words
  refine (View.read_writes_cons_unit_of_mem _ _ _ _ _ (ix2 (0 : Fin 1) (pt 0 j)) (ix2 (0 : Fin 1) j) (off_first i hm) (fun a => ?_)).trans ?_
  · match a with
    | ⟨0, _⟩ => rfl
    | ⟨1, _⟩ => show 2048 * (0 : Fin 2).val + j.val = _ + j.val; simp
  · refine (pay2_apply _ _ _).trans ?_
    simp only [View.readAt_eq_ld, harg3.read_unread, harg4.read_unread, harg8.read_unread, View.ld_unit_zero (S := S1x2048x64) hz3, View.ld_unit_zero (S := S1x64x2048) hz3, View.read_writes_junk_eq_canon, View.canon_unit_zero (S := S1x4096) hz2]
    show FloatOps.minimumf (k0_pay6 _) _ = _
    rw [pay6_apply]

theorem sout0_A_1_hi (c : Dev nD) (i : grid0.Coords) (arg3 : Memref sig .tc .vmem S1x2048x64 .f32) (harg3 : arg3.IsWhole) (arg4 : Memref sig .tc .vmem S1x64x2048 .f32) (harg4 : arg4.IsWhole) (arg5 : Memref sig .tc .vmem S1x1x1 .f32) (harg5 : arg5.IsWhole) (arg6 : Memref sig .tc .vmem S1x1x1 .f32) (harg6 : arg6.IsWhole) (arg7 : Memref sig .tc .vmem S2048x1 .f32) (harg7 : arg7.IsWhole) (arg8 : Memref sig .tc .vmem S1x4096 .f32) (harg8 : arg8.IsWhole) (arg9 : Memref sig .tc .vmem S1x1 .f32) (harg9 : arg9.IsWhole) (hc0 : cond0_0 i) (hc1 : cond0_1 i) (hc2 : ¬cond0_2 i) (hc3 : ¬cond0_3 i) (x0 : Vec F S1x2048x64 .f32) (x1 : Vec F S1x64x2048 .f32) (hm : (i 2).val = 0) (j : Fin 2048) :
    sout0_A_1 c i arg3 harg3 arg4 harg4 arg5 harg5 arg6 harg6 arg7 harg7 arg8 harg8 arg9 harg9 hc0 hc1 hc2 hc3 x0 x1 (ix2 (0 : Fin 1) (pt 1 j)) = (Scalar.ofBits (F := F) .f32 0x7F800000#32) := by
  unfold sout0_A_1 kernelRun0_A
  dsimp only
  sl_unfold_words
  refine (View.read_writes_cons_unit_of_not_mem _ _ _ _ _ (ix2 (0 : Fin 1) (pt 1 j)) (off_first i hm) (1 : Fin 2) ?_).trans ?_
  · show (2048 * (1 : Fin 2).val + j.val < _ ∨ _ ≤ 2048 * (1 : Fin 2).val + j.val)
    have := j.isLt
    right; show 0 + 2048 ≤ 2048 * 1 + j.val; omega
  · rw [View.read_writes_junk_eq_canon, View.canon_unit_zero (S := S1x4096) hz2, pay6_apply]

theorem sout0_B_1_lo (c : Dev nD) (i : grid0.Coords) (arg3 : Memref sig .tc .vmem S1x2048x64 .f32) (harg3 : arg3.IsWhole) (arg4 : Memref sig .tc .vmem S1x64x2048 .f32) (harg4 : arg4.IsWhole) (arg5 : Memref sig .tc .vmem S1x1x1 .f32) (harg5 : arg5.IsWhole) (arg6 : Memref sig .tc .vmem S1x1x1 .f32) (harg6 : arg6.IsWhole) (arg7 : Memref sig .tc .vmem S2048x1 .f32) (harg7 : arg7.IsWhole) (arg8 : Memref sig .tc .vmem S1x4096 .f32) (harg8 : arg8.IsWhole) (arg9 : Memref sig .tc .vmem S1x1 .f32) (harg9 : arg9.IsWhole) (hc0 : ¬cond0_0 i) (hc1 : ¬cond0_1 i) (hc2 : cond0_2 i) (hc3 : ¬cond0_3 i) (x0 : Vec F S1x2048x64 .f32) (x1 : Vec F S1x64x2048 .f32) (xs0 : Vec F S2048x1 .f32) (xs1 : Vec F S1x4096 .f32) (xs2 : Vec F S1x1 .f32) (hm : (i 2).val = 1) (j : Fin 2048) :
    sout0_B_1 c i arg3 harg3 arg4 harg4 arg5 harg5 arg6 harg6 arg7 harg7 arg8 harg8 arg9 harg9 hc0 hc1 hc2 hc3 x0 x1 xs0 xs1 xs2 (ix2 (0 : Fin 1) (pt 0 j)) = xs1 (ix2 (0 : Fin 1) (pt 0 j)) := by
  unfold sout0_B_1 kernelRun0_B
  dsimp only
  sl_unfold_words
  refine (View.read_writes_cons_unit_of_not_mem _ _ _ _ _ (ix2 (0 : Fin 1) (pt 0 j)) (off_second i hm) (1 : Fin 2) ?_).trans ?_
  · show (2048 * (0 : Fin 2).val + j.val < _ ∨ _ ≤ 2048 * (0 : Fin 2).val + j.val)
    have := j.isLt
    left; show 2048 * 0 + j.val < 2048; omega
  · rw [View.writes_nil, harg8.read_unread]

theorem sout0_B_1_hi (c : Dev nD) (i : grid0.Coords) (arg3 : Memref sig .tc .vmem S1x2048x64 .f32) (harg3 : arg3.IsWhole) (arg4 : Memref sig .tc .vmem S1x64x2048 .f32) (harg4 : arg4.IsWhole) (arg5 : Memref sig .tc .vmem S1x1x1 .f32) (harg5 : arg5.IsWhole) (arg6 : Memref sig .tc .vmem S1x1x1 .f32) (harg6 : arg6.IsWhole) (arg7 : Memref sig .tc .vmem S2048x1 .f32) (harg7 : arg7.IsWhole) (arg8 : Memref sig .tc .vmem S1x4096 .f32) (harg8 : arg8.IsWhole) (arg9 : Memref sig .tc .vmem S1x1 .f32) (harg9 : arg9.IsWhole) (hc0 : ¬cond0_0 i) (hc1 : ¬cond0_1 i) (hc2 : cond0_2 i) (hc3 : ¬cond0_3 i) (x0 : Vec F S1x2048x64 .f32) (x1 : Vec F S1x64x2048 .f32) (xs0 : Vec F S2048x1 .f32) (xs1 : Vec F S1x4096 .f32) (xs2 : Vec F S1x1 .f32) (hm : (i 2).val = 1) (j : Fin 2048) :
    sout0_B_1 c i arg3 harg3 arg4 harg4 arg5 harg5 arg6 harg6 arg7 harg7 arg8 harg8 arg9 harg9 hc0 hc1 hc2 hc3 x0 x1 xs0 xs1 xs2 (ix2 (0 : Fin 1) (pt 1 j)) = FloatOps.minimumf (xs1 (ix2 (0 : Fin 1) (pt 1 j))) (k0_pay10 x0 x1 (ix2 (0 : Fin 1) j)) := by
  unfold sout0_B_1 kernelRun0_B
  dsimp only
  sl_unfold_words
  refine (View.read_writes_cons_unit_of_mem _ _ _ _ _ (ix2 (0 : Fin 1) (pt 1 j)) (ix2 (0 : Fin 1) j) (off_second i hm) (fun a => ?_)).trans ?_
  · match a with
    | ⟨0, _⟩ => rfl
    | ⟨1, _⟩ => show 2048 * (1 : Fin 2).val + j.val = _ + j.val; rfl
  · refine (pay2_apply _ _ _).trans ?_
    simp only [View.readAt_eq_ld, harg3.read_unread, harg4.read_unread, harg8.read_unread, View.ld_unit_zero (S := S1x2048x64) hz3, View.ld_unit_zero (S := S1x64x2048) hz3]
    refine congrArg (FloatOps.minimumf · _) (congrArg xs1 ?_)
    exact unit_idx_eq _ (ix2 (0 : Fin 1) j) (ix2 (0 : Fin 1) (pt 1 j)) (off_second i hm) (fun a => by
      match a with
      | ⟨0, _⟩ => rfl
      | ⟨1, _⟩ => show 2048 * (1 : Fin 2).val + j.val = _ + j.val; rfl)

theorem sout0_C_1_lo (c : Dev nD) (i : grid0.Coords) (arg3 : Memref sig .tc .vmem S1x2048x64 .f32) (harg3 : arg3.IsWhole) (arg4 : Memref sig .tc .vmem S1x64x2048 .f32) (harg4 : arg4.IsWhole) (arg5 : Memref sig .tc .vmem S1x1x1 .f32) (harg5 : arg5.IsWhole) (arg6 : Memref sig .tc .vmem S1x1x1 .f32) (harg6 : arg6.IsWhole) (arg7 : Memref sig .tc .vmem S2048x1 .f32) (harg7 : arg7.IsWhole) (arg8 : Memref sig .tc .vmem S1x4096 .f32) (harg8 : arg8.IsWhole) (arg9 : Memref sig .tc .vmem S1x1 .f32) (harg9 : arg9.IsWhole) (hc0 : ¬cond0_0 i) (hc1 : cond0_1 i) (hc2 : ¬cond0_2 i) (hc3 : ¬cond0_3 i) (x0 : Vec F S1x2048x64 .f32) (x1 : Vec F S1x64x2048 .f32) (xs1 : Vec F S1x4096 .f32) (xs2 : Vec F S1x1 .f32) (hm : (i 2).val = 0) (j : Fin 2048) :
    sout0_C_1 c i arg3 harg3 arg4 harg4 arg5 harg5 arg6 harg6 arg7 harg7 arg8 harg8 arg9 harg9 hc0 hc1 hc2 hc3 x0 x1 xs1 xs2 (ix2 (0 : Fin 1) (pt 0 j)) = FloatOps.minimumf (xs1 (ix2 (0 : Fin 1) (pt 0 j))) (k0_pay10 x0 x1 (ix2 (0 : Fin 1) j)) := by
  unfold sout0_C_1 kernelRun0_C
  dsimp only
  sl_unfold_words
  refine (View.read_writes_cons_unit_of_mem _ _ _ _ _ (ix2 (0 : Fin 1) (pt 0 j)) (ix2 (0 : Fin 1) j) (off_first i hm) (fun a => ?_)).trans ?_
  · match a with
    | ⟨0, _⟩ => rfl
    | ⟨1, _⟩ => show 2048 * (0 : Fin 2).val + j.val = _ + j.val; simp
  · refine (pay2_apply _ _ _).trans ?_
    simp only [View.readAt_eq_ld, harg3.read_unread, harg4.read_unread, harg8.read_unread, View.ld_unit_zero (S := S1x2048x64) hz3, View.ld_unit_zero (S := S1x64x2048) hz3]
    refine congrArg (FloatOps.minimumf · _) (congrArg xs1 ?_)
    exact unit_idx_eq _ (ix2 (0 : Fin 1) j) (ix2 (0 : Fin 1) (pt 0 j)) (off_first i hm) (fun a => by
      match a with
      | ⟨0, _⟩ => rfl
      | ⟨1, _⟩ => show 2048 * (0 : Fin 2).val + j.val = _ + j.val; simp)

theorem sout0_C_1_hi (c : Dev nD) (i : grid0.Coords) (arg3 : Memref sig .tc .vmem S1x2048x64 .f32) (harg3 : arg3.IsWhole) (arg4 : Memref sig .tc .vmem S1x64x2048 .f32) (harg4 : arg4.IsWhole) (arg5 : Memref sig .tc .vmem S1x1x1 .f32) (harg5 : arg5.IsWhole) (arg6 : Memref sig .tc .vmem S1x1x1 .f32) (harg6 : arg6.IsWhole) (arg7 : Memref sig .tc .vmem S2048x1 .f32) (harg7 : arg7.IsWhole) (arg8 : Memref sig .tc .vmem S1x4096 .f32) (harg8 : arg8.IsWhole) (arg9 : Memref sig .tc .vmem S1x1 .f32) (harg9 : arg9.IsWhole) (hc0 : ¬cond0_0 i) (hc1 : cond0_1 i) (hc2 : ¬cond0_2 i) (hc3 : ¬cond0_3 i) (x0 : Vec F S1x2048x64 .f32) (x1 : Vec F S1x64x2048 .f32) (xs1 : Vec F S1x4096 .f32) (xs2 : Vec F S1x1 .f32) (hm : (i 2).val = 0) (j : Fin 2048) :
    sout0_C_1 c i arg3 harg3 arg4 harg4 arg5 harg5 arg6 harg6 arg7 harg7 arg8 harg8 arg9 harg9 hc0 hc1 hc2 hc3 x0 x1 xs1 xs2 (ix2 (0 : Fin 1) (pt 1 j)) = xs1 (ix2 (0 : Fin 1) (pt 1 j)) := by
  unfold sout0_C_1 kernelRun0_C
  dsimp only
  sl_unfold_words
  refine (View.read_writes_cons_unit_of_not_mem _ _ _ _ _ (ix2 (0 : Fin 1) (pt 1 j)) (off_first i hm) (1 : Fin 2) ?_).trans ?_
  · show (2048 * (1 : Fin 2).val + j.val < _ ∨ _ ≤ 2048 * (1 : Fin 2).val + j.val)
    have := j.isLt
    right; show 0 + 2048 ≤ 2048 * 1 + j.val; omega
  · rw [View.writes_nil, harg8.read_unread]

theorem sout0_D_1_lo (c : Dev nD) (i : grid0.Coords) (arg3 : Memref sig .tc .vmem S1x2048x64 .f32) (harg3 : arg3.IsWhole) (arg4 : Memref sig .tc .vmem S1x64x2048 .f32) (harg4 : arg4.IsWhole) (arg5 : Memref sig .tc .vmem S1x1x1 .f32) (harg5 : arg5.IsWhole) (arg6 : Memref sig .tc .vmem S1x1x1 .f32) (harg6 : arg6.IsWhole) (arg7 : Memref sig .tc .vmem S2048x1 .f32) (harg7 : arg7.IsWhole) (arg8 : Memref sig .tc .vmem S1x4096 .f32) (harg8 : arg8.IsWhole) (arg9 : Memref sig .tc .vmem S1x1 .f32) (harg9 : arg9.IsWhole) (hc0 : ¬cond0_0 i) (hc1 : ¬cond0_1 i) (hc2 : cond0_2 i) (hc3 : cond0_3 i) (x0 : Vec F S1x2048x64 .f32) (x1 : Vec F S1x64x2048 .f32) (xs0 : Vec F S2048x1 .f32) (xs1 : Vec F S1x4096 .f32) (xs2 : Vec F S1x1 .f32) (hm : (i 2).val = 1) (j : Fin 2048) :
    sout0_D_1 c i arg3 harg3 arg4 harg4 arg5 harg5 arg6 harg6 arg7 harg7 arg8 harg8 arg9 harg9 hc0 hc1 hc2 hc3 x0 x1 xs0 xs1 xs2 (ix2 (0 : Fin 1) (pt 0 j)) = xs1 (ix2 (0 : Fin 1) (pt 0 j)) := by
  unfold sout0_D_1 kernelRun0_D
  dsimp only
  sl_unfold_words
  refine (View.read_writes_cons_unit_of_not_mem _ _ _ _ _ (ix2 (0 : Fin 1) (pt 0 j)) (off_second i hm) (1 : Fin 2) ?_).trans ?_
  · show (2048 * (0 : Fin 2).val + j.val < _ ∨ _ ≤ 2048 * (0 : Fin 2).val + j.val)
    have := j.isLt
    left; show 2048 * 0 + j.val < 2048; omega
  · rw [View.writes_nil, harg8.read_unread]

theorem sout0_D_1_hi (c : Dev nD) (i : grid0.Coords) (arg3 : Memref sig .tc .vmem S1x2048x64 .f32) (harg3 : arg3.IsWhole) (arg4 : Memref sig .tc .vmem S1x64x2048 .f32) (harg4 : arg4.IsWhole) (arg5 : Memref sig .tc .vmem S1x1x1 .f32) (harg5 : arg5.IsWhole) (arg6 : Memref sig .tc .vmem S1x1x1 .f32) (harg6 : arg6.IsWhole) (arg7 : Memref sig .tc .vmem S2048x1 .f32) (harg7 : arg7.IsWhole) (arg8 : Memref sig .tc .vmem S1x4096 .f32) (harg8 : arg8.IsWhole) (arg9 : Memref sig .tc .vmem S1x1 .f32) (harg9 : arg9.IsWhole) (hc0 : ¬cond0_0 i) (hc1 : ¬cond0_1 i) (hc2 : cond0_2 i) (hc3 : cond0_3 i) (x0 : Vec F S1x2048x64 .f32) (x1 : Vec F S1x64x2048 .f32) (xs0 : Vec F S2048x1 .f32) (xs1 : Vec F S1x4096 .f32) (xs2 : Vec F S1x1 .f32) (hm : (i 2).val = 1) (j : Fin 2048) :
    sout0_D_1 c i arg3 harg3 arg4 harg4 arg5 harg5 arg6 harg6 arg7 harg7 arg8 harg8 arg9 harg9 hc0 hc1 hc2 hc3 x0 x1 xs0 xs1 xs2 (ix2 (0 : Fin 1) (pt 1 j)) = FloatOps.minimumf (xs1 (ix2 (0 : Fin 1) (pt 1 j))) (k0_pay10 x0 x1 (ix2 (0 : Fin 1) j)) := by
  unfold sout0_D_1 kernelRun0_D
  dsimp only
  sl_unfold_words
  refine (View.read_writes_cons_unit_of_mem _ _ _ _ _ (ix2 (0 : Fin 1) (pt 1 j)) (ix2 (0 : Fin 1) j) (off_second i hm) (fun a => ?_)).trans ?_
  · match a with
    | ⟨0, _⟩ => rfl
    | ⟨1, _⟩ => show 2048 * (1 : Fin 2).val + j.val = _ + j.val; rfl
  · refine (pay2_apply _ _ _).trans ?_
    simp only [View.readAt_eq_ld, harg3.read_unread, harg4.read_unread, harg8.read_unread, View.ld_unit_zero (S := S1x2048x64) hz3, View.ld_unit_zero (S := S1x64x2048) hz3]
    refine congrArg (FloatOps.minimumf · _) (congrArg xs1 ?_)
    exact unit_idx_eq _ (ix2 (0 : Fin 1) j) (ix2 (0 : Fin 1) (pt 1 j)) (off_second i hm) (fun a => by
      match a with
      | ⟨0, _⟩ => rfl
      | ⟨1, _⟩ => show 2048 * (1 : Fin 2).val + j.val = _ + j.val; rfl)

end Cert.KernelIdeal.Pieces
end
-- ==== Proof.Chain.lean ====
/-
  The four grid points of one batch, in order, and what they leave.

  Within batch `b` the points are (row half 0, column half 0), (0, 1), (1, 0), (1, 1).  The first resets the column
  accumulator and the running sum; a point of column half 0 resets the row accumulator; every point folds its tile's row
  minima into the row accumulator and its column minima into its half of the column accumulator; a point of column half 1
  adds the row accumulator to the running sum; the last point writes the running sum and the sum of the column accumulator
  to the two outputs.  Unrolled: after the fourth point the first output is
  `(0 + Σ_r acc₀ r) + Σ_r acc₁ r` with `acc_n r` the running minimum of row `2048 n + r` over both column halves, and
  the second is the sum over all 4096 columns of the column minimum.
-/
import proofs.«131100_j51814485459453_1_alg».proof.Proof.Gen.KernelIdeal.Frame
import proofs.«131100_j51814485459453_1_alg».proof.Proof.Spec
import proofs.«131100_j51814485459453_1_alg».proof.Proof.Pay
import proofs.«131100_j51814485459453_1_alg».proof.Proof.Pieces
import proofs.«131100_j51814485459453_1_alg».proof.Proof.Blocks
import Idealize.ShloMosaic.Lib.Pipeline.Value
import Idealize.ShloMosaic.Lib.ValueIdx

noncomputable section

open scoped BigOperators
open Idealize.ShloMosaic Idealize.ShloMosaic.TcCoe Idealize.SL.Sem
open Idealize.ShloMosaic.Pipeline (Dat)

namespace Cert.KernelIdeal.Chain

open Cert.KernelIdeal Cert.KernelIdeal.Gen Idealize.ShloMosaic.ValueIdx Cert.Chamfer Cert.KernelIdeal.Blocks

variable (m : (ℓ : Loc nD τ sig) → Buf (Elt Ideal) ℓ)

/-- What the two output buffers and the three accumulators hold after a point. -/
abbrev St : Type :=
  Vec Ideal S1x1x1 .f32 × Vec Ideal S1x1x1 .f32 × Vec Ideal S2048x1 .f32 × Vec Ideal S1x4096 .f32 × Vec Ideal S1x1 .f32

/-- What the point before `t` left. -/
abbrev prev (c : Dev nD) (t : Fin cfg0.N) : St := outsAt0 m c (t.val - 1) (Nat.lt_of_le_of_lt (Nat.sub_le _ _) t.isLt)

/-- After the first point of batch `b`: the row accumulator at the first column half's minima of row half 0, the column
    accumulator at the first row half's minima on column half 0 and still `⊤` on column half 1, the running sum zero. -/
structure AfterFirst (c : Dev nD) (b : Fin 16) (s : St) : Prop where
  row : ∀ r : Fin 2048, s.2.2.1 (ix2 r (0 : Fin 1)) = min ⊤ (tileRow (X m c) (Y m c) b 0 0 r)
  colLo : ∀ j : Fin 2048, s.2.2.2.1 (ix2 (0 : Fin 1) (pt 0 j)) = min ⊤ (tileCol (X m c) (Y m c) b 0 0 j)
  colHi : ∀ j : Fin 2048, s.2.2.2.1 (ix2 (0 : Fin 1) (pt 1 j)) = ⊤
  sum : s.2.2.2.2 (ix2 (0 : Fin 1) (0 : Fin 1)) = 0

/-- After the second point: row half 0 is finished and added to the running sum; column half 1 has its first minima. -/
structure AfterSecond (c : Dev nD) (b : Fin 16) (s : St) : Prop where
  colLo : ∀ j : Fin 2048, s.2.2.2.1 (ix2 (0 : Fin 1) (pt 0 j)) = min ⊤ (tileCol (X m c) (Y m c) b 0 0 j)
  colHi : ∀ j : Fin 2048, s.2.2.2.1 (ix2 (0 : Fin 1) (pt 1 j)) = min ⊤ (tileCol (X m c) (Y m c) b 0 1 j)
  sum : s.2.2.2.2 (ix2 (0 : Fin 1) (0 : Fin 1)) = 0 + ∑ r : Fin 2048, min (min ⊤ (tileRow (X m c) (Y m c) b 0 0 r)) (tileRow (X m c) (Y m c) b 0 1 r)

/-- After the third point: the row accumulator restarted on row half 1; column half 0 is finished. -/
structure AfterThird (c : Dev nD) (b : Fin 16) (s : St) : Prop where
  row : ∀ r : Fin 2048, s.2.2.1 (ix2 r (0 : Fin 1)) = min ⊤ (tileRow (X m c) (Y m c) b 1 0 r)
  colLo : ∀ j : Fin 2048, s.2.2.2.1 (ix2 (0 : Fin 1) (pt 0 j)) = min (min ⊤ (tileCol (X m c) (Y m c) b 0 0 j)) (tileCol (X m c) (Y m c) b 1 0 j)
  colHi : ∀ j : Fin 2048, s.2.2.2.1 (ix2 (0 : Fin 1) (pt 1 j)) = min ⊤ (tileCol (X m c) (Y m c) b 0 1 j)
  sum : s.2.2.2.2 (ix2 (0 : Fin 1) (0 : Fin 1)) = 0 + ∑ r : Fin 2048, min (min ⊤ (tileRow (X m c) (Y m c) b 0 0 r)) (tileRow (X m c) (Y m c) b 0 1 r)

/-- After the fourth point: the two outputs. -/
structure AfterLast (c : Dev nD) (b : Fin 16) (s : St) : Prop where
  outRows : s.1 (ix3 (0 : Fin 1) (0 : Fin 1) (0 : Fin 1))
    = (0 + ∑ r : Fin 2048, min (min ⊤ (tileRow (X m c) (Y m c) b 0 0 r)) (tileRow (X m c) (Y m c) b 0 1 r)) + ∑ r : Fin 2048, min (min ⊤ (tileRow (X m c) (Y m c) b 1 0 r)) (tileRow (X m c) (Y m c) b 1 1 r)
  outCols : s.2.1 (ix3 (0 : Fin 1) (0 : Fin 1) (0 : Fin 1)) = ∑ j : Fin 4096, colMin (X m c) (Y m c) b j

theorem afterFirst (c : Dev nD) (b : Fin 16) (t : Fin cfg0.N) (ht : t.val = 4 * b.val) :
    AfterFirst m c b (outsAt0 m c t.val t.isLt) := by
  have h0 : t.val % 4 = 0 := by omega
  have h1 : t.val % 2 = 0 := by omega
  have h2 : ¬t.val % 2 = 1 := by omega
  have h3 : ¬t.val % 4 = 3 := by omega
  have hm : ((grid0.coords t) 2).val = 0 := by rw [(grid_facts t).1]; omega
  rw [outsAt0_A m c t h0 h1 h2 h3]
  refine ⟨fun r => ?_, fun j => ?_, fun j => ?_, ?_⟩
  · dsimp only
    refine (congrFun (Pieces.sout0_A_0_eq (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) ((hcond0_0 t).mpr h0) ((hcond0_1 t).mpr h1) (fun h => h2 ((hcond0_2 t).mp h)) (fun h => h3 ((hcond0_3 t).mp h)) (xb m c t) (yb m c t)) (ix2 r (0 : Fin 1))).trans ?_
    refine (congrFun (Pay.pay1_eq _) _).trans ?_
    refine (Pay.pay11_apply (xb m c t) (yb m c t) _ r).trans ?_
    exact congrArg₂ min (Pay.pay8_apply _) (rowmin_tile m c t b 0 0 (by show t.val = 4 * b.val + 2 * 0 + 0; omega) r)
  · dsimp only
    refine (Pieces.sout0_A_1_lo (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) ((hcond0_0 t).mpr h0) ((hcond0_1 t).mpr h1) (fun h => h2 ((hcond0_2 t).mp h)) (fun h => h3 ((hcond0_3 t).mp h)) (xb m c t) (yb m c t) hm j).trans ?_
    exact congrArg₂ min Pay.inf_eq_top ((Pay.pay10_apply (xb m c t) (yb m c t) j).trans (colmin_tile m c t b 0 0 (by show t.val = 4 * b.val + 2 * 0 + 0; omega) j))
  · dsimp only
    exact (Pieces.sout0_A_1_hi (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) ((hcond0_0 t).mpr h0) ((hcond0_1 t).mpr h1) (fun h => h2 ((hcond0_2 t).mp h)) (fun h => h3 ((hcond0_3 t).mp h)) (xb m c t) (yb m c t) hm j).trans Pay.inf_eq_top
  · dsimp only
    exact (congrFun (Pieces.sout0_A_2_eq (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) ((hcond0_0 t).mpr h0) ((hcond0_1 t).mpr h1) (fun h => h2 ((hcond0_2 t).mp h)) (fun h => h3 ((hcond0_3 t).mp h)) (xb m c t) (yb m c t)) (ix2 (0 : Fin 1) (0 : Fin 1))).trans (Pay.pay7_apply _)

theorem afterSecond (c : Dev nD) (b : Fin 16) (t : Fin cfg0.N) (ht : t.val = 4 * b.val + 1) :
    AfterSecond m c b (outsAt0 m c t.val t.isLt) := by
  have hp : AfterFirst m c b (prev m c t) :=
    afterFirst m c b ⟨t.val - 1, Nat.lt_of_le_of_lt (Nat.sub_le _ _) t.isLt⟩ (by show t.val - 1 = 4 * b.val; omega)
  have h0 : ¬t.val % 4 = 0 := by omega
  have h1 : ¬t.val % 2 = 0 := by omega
  have h2 : t.val % 2 = 1 := by omega
  have h3 : ¬t.val % 4 = 3 := by omega
  have hm : ((grid0.coords t) 2).val = 1 := by rw [(grid_facts t).1]; omega
  have hrow : ∀ r : Fin 2048, k0_pay1 (F := Ideal) (k0_pay11 (xb m c t) (yb m c t) (prev m c t).2.2.1) (ix2 r (0 : Fin 1)) = min (min ⊤ (tileRow (X m c) (Y m c) b 0 0 r)) (tileRow (X m c) (Y m c) b 0 1 r) := fun r => by
    refine (congrFun (Pay.pay1_eq _) _).trans ?_
    refine (Pay.pay11_apply (xb m c t) (yb m c t) _ r).trans ?_
    exact congrArg₂ min (hp.row r) (rowmin_tile m c t b 0 1 (by show t.val = 4 * b.val + 2 * 0 + 1; omega) r)
  rw [outsAt0_B m c t h0 h1 h2 h3]
  refine ⟨fun j => ?_, fun j => ?_, ?_⟩
  · dsimp only
    exact (Pieces.sout0_B_1_lo (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) (fun h => h1 ((hcond0_1 t).mp h)) ((hcond0_2 t).mpr h2) (fun h => h3 ((hcond0_3 t).mp h)) (xb m c t) (yb m c t) (prev m c t).2.2.1 (prev m c t).2.2.2.1 (prev m c t).2.2.2.2 hm j).trans (hp.colLo j)
  · dsimp only
    refine (Pieces.sout0_B_1_hi (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) (fun h => h1 ((hcond0_1 t).mp h)) ((hcond0_2 t).mpr h2) (fun h => h3 ((hcond0_3 t).mp h)) (xb m c t) (yb m c t) (prev m c t).2.2.1 (prev m c t).2.2.2.1 (prev m c t).2.2.2.2 hm j).trans ?_
    exact congrArg₂ min (hp.colHi j) ((Pay.pay10_apply (xb m c t) (yb m c t) j).trans (colmin_tile m c t b 0 1 (by show t.val = 4 * b.val + 2 * 0 + 1; omega) j))
  · dsimp only
    refine (congrFun (Pieces.sout0_B_2_eq (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) (fun h => h1 ((hcond0_1 t).mp h)) ((hcond0_2 t).mpr h2) (fun h => h3 ((hcond0_3 t).mp h)) (xb m c t) (yb m c t) (prev m c t).2.2.1 (prev m c t).2.2.2.1 (prev m c t).2.2.2.2) (ix2 (0 : Fin 1) (0 : Fin 1))).trans ?_
    refine (Pay.pay3_apply _ _).trans ?_
    exact congrArg₂ (· + ·) hp.sum (Finset.sum_congr rfl fun r _ => hrow r)

theorem afterThird (c : Dev nD) (b : Fin 16) (t : Fin cfg0.N) (ht : t.val = 4 * b.val + 2) :
    AfterThird m c b (outsAt0 m c t.val t.isLt) := by
  have hp : AfterSecond m c b (prev m c t) :=
    afterSecond m c b ⟨t.val - 1, Nat.lt_of_le_of_lt (Nat.sub_le _ _) t.isLt⟩ (by show t.val - 1 = 4 * b.val + 1; omega)
  have h0 : ¬t.val % 4 = 0 := by omega
  have h1 : t.val % 2 = 0 := by omega
  have h2 : ¬t.val % 2 = 1 := by omega
  have h3 : ¬t.val % 4 = 3 := by omega
  have hm : ((grid0.coords t) 2).val = 0 := by rw [(grid_facts t).1]; omega
  rw [outsAt0_C m c t h0 h1 h2 h3]
  refine ⟨fun r => ?_, fun j => ?_, fun j => ?_, ?_⟩
  · dsimp only
    refine (congrFun (Pieces.sout0_C_0_eq (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) ((hcond0_1 t).mpr h1) (fun h => h2 ((hcond0_2 t).mp h)) (fun h => h3 ((hcond0_3 t).mp h)) (xb m c t) (yb m c t) (prev m c t).2.2.2.1 (prev m c t).2.2.2.2) (ix2 r (0 : Fin 1))).trans ?_
    refine (congrFun (Pay.pay1_eq _) _).trans ?_
    refine (Pay.pay11_apply (xb m c t) (yb m c t) _ r).trans ?_
    exact congrArg₂ min (Pay.pay8_apply _) (rowmin_tile m c t b 1 0 (by show t.val = 4 * b.val + 2 * 1 + 0; omega) r)
  · dsimp only
    refine (Pieces.sout0_C_1_lo (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) ((hcond0_1 t).mpr h1) (fun h => h2 ((hcond0_2 t).mp h)) (fun h => h3 ((hcond0_3 t).mp h)) (xb m c t) (yb m c t) (prev m c t).2.2.2.1 (prev m c t).2.2.2.2 hm j).trans ?_
    exact congrArg₂ min (hp.colLo j) ((Pay.pay10_apply (xb m c t) (yb m c t) j).trans (colmin_tile m c t b 1 0 (by show t.val = 4 * b.val + 2 * 1 + 0; omega) j))
  · dsimp only
    exact (Pieces.sout0_C_1_hi (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) ((hcond0_1 t).mpr h1) (fun h => h2 ((hcond0_2 t).mp h)) (fun h => h3 ((hcond0_3 t).mp h)) (xb m c t) (yb m c t) (prev m c t).2.2.2.1 (prev m c t).2.2.2.2 hm j).trans (hp.colHi j)
  · dsimp only
    exact (congrFun (Pieces.sout0_C_2_eq (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) ((hcond0_1 t).mpr h1) (fun h => h2 ((hcond0_2 t).mp h)) (fun h => h3 ((hcond0_3 t).mp h)) (xb m c t) (yb m c t) (prev m c t).2.2.2.1 (prev m c t).2.2.2.2) (ix2 (0 : Fin 1) (0 : Fin 1))).trans hp.sum

theorem afterLast (c : Dev nD) (b : Fin 16) (t : Fin cfg0.N) (ht : t.val = 4 * b.val + 3) :
    AfterLast m c b (outsAt0 m c t.val t.isLt) := by
  have hp : AfterThird m c b (prev m c t) :=
    afterThird m c b ⟨t.val - 1, Nat.lt_of_le_of_lt (Nat.sub_le _ _) t.isLt⟩ (by show t.val - 1 = 4 * b.val + 2; omega)
  have h0 : ¬t.val % 4 = 0 := by omega
  have h1 : ¬t.val % 2 = 0 := by omega
  have h2 : t.val % 2 = 1 := by omega
  have h3 : t.val % 4 = 3 := by omega
  have hm : ((grid0.coords t) 2).val = 1 := by rw [(grid_facts t).1]; omega
  have hrow : ∀ r : Fin 2048, k0_pay1 (F := Ideal) (k0_pay11 (xb m c t) (yb m c t) (prev m c t).2.2.1) (ix2 r (0 : Fin 1)) = min (min ⊤ (tileRow (X m c) (Y m c) b 1 0 r)) (tileRow (X m c) (Y m c) b 1 1 r) := fun r => by
    refine (congrFun (Pay.pay1_eq _) _).trans ?_
    refine (Pay.pay11_apply (xb m c t) (yb m c t) _ r).trans ?_
    exact congrArg₂ min (hp.row r) (rowmin_tile m c t b 1 1 (by show t.val = 4 * b.val + 2 * 1 + 1; omega) r)
  rw [outsAt0_D m c t h0 h1 h2 h3]
  refine ⟨?_, ?_⟩
  · dsimp only
    refine (congrFun (Pieces.out0_D_2_eq (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) (fun h => h1 ((hcond0_1 t).mp h)) ((hcond0_2 t).mpr h2) ((hcond0_3 t).mpr h3) (xb m c t) (yb m c t) (prev m c t).2.2.1 (prev m c t).2.2.2.1 (prev m c t).2.2.2.2) (ix3 (0 : Fin 1) (0 : Fin 1) (0 : Fin 1))).trans ?_
    refine (Pay.pay4_apply _).trans ?_
    refine (Pay.pay3_apply _ _).trans ?_
    exact congrArg₂ (· + ·) hp.sum (Finset.sum_congr rfl fun r _ => hrow r)
  · dsimp only
    refine (congrFun (Pieces.out0_D_3_eq (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) (fun h => h1 ((hcond0_1 t).mp h)) ((hcond0_2 t).mpr h2) ((hcond0_3 t).mpr h3) (xb m c t) (yb m c t) (prev m c t).2.2.1 (prev m c t).2.2.2.1 (prev m c t).2.2.2.2) (ix3 (0 : Fin 1) (0 : Fin 1) (0 : Fin 1))).trans ?_
    refine (Pay.pay5_apply _).trans ?_
    refine Finset.sum_congr rfl fun j _ => ?_
    obtain ⟨h, r, rfl⟩ := exists_pt j
    match h with
    | ⟨0, _⟩ =>
      refine (Pieces.sout0_D_1_lo (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) (fun h => h1 ((hcond0_1 t).mp h)) ((hcond0_2 t).mpr h2) ((hcond0_3 t).mpr h3) (xb m c t) (yb m c t) (prev m c t).2.2.1 (prev m c t).2.2.2.1 (prev m c t).2.2.2.2 hm r).trans ?_
      exact (hp.colLo r).trans (accCol_eq (X m c) (Y m c) b 0 r)
    | ⟨1, _⟩ =>
      refine (Pieces.sout0_D_1_hi (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) (fun h => h1 ((hcond0_1 t).mp h)) ((hcond0_2 t).mpr h2) ((hcond0_3 t).mpr h3) (xb m c t) (yb m c t) (prev m c t).2.2.1 (prev m c t).2.2.2.1 (prev m c t).2.2.2.2 hm r).trans ?_
      refine (congrArg₂ min (hp.colHi r) ((Pay.pay10_apply (xb m c t) (yb m c t) r).trans (colmin_tile m c t b 1 1 (by show t.val = 4 * b.val + 2 * 1 + 1; omega) r))).trans ?_
      exact accCol_eq (X m c) (Y m c) b 1 r

end Cert.KernelIdeal.Chain

end
-- ==== Proof.Final.lean ====
/-
  From the last point of each batch to the program's result.

  Output block `b` of each of the two 16 × 1 × 1 result arrays is written back once, after point `4b + 3`, with what that
  point left; the sixteen blocks tile the arrays.  So the first array holds, at batch `b`, the two row halves' sums of row
  minima added to a zero, and the second the sum of the column minima.  The host lines after the kernel sum each array over
  the batches from a zero, halve both sums and add them: the tiled evaluation of the loss.
-/
import proofs.«131100_j51814485459453_1_alg».proof.Proof.Gen.KernelIdeal.Frame
import proofs.«131100_j51814485459453_1_alg».proof.Proof.Spec
import proofs.«131100_j51814485459453_1_alg».proof.Proof.Blocks
import proofs.«131100_j51814485459453_1_alg».proof.Proof.Chain
import Idealize.ShloMosaic.Lib.Pipeline.Value
import Idealize.ShloMosaic.Lib.StableHlo.Run
import Idealize.ShloMosaic.Lib.ValueIdx
import Idealize.ShloMosaic.Lib.Tactic
import Idealize.ShloMosaic.PureOps.Ideal.Laws

noncomputable section

open scoped BigOperators
open Idealize.ShloMosaic Idealize.ShloMosaic.TcCoe Idealize.SL.Sem
open Idealize.ShloMosaic.Pipeline (Dat)

namespace Cert.KernelIdeal.Final

open Cert.KernelIdeal Cert.KernelIdeal.Gen Idealize.ShloMosaic.ValueIdx Cert.Chamfer Cert.KernelIdeal.Blocks Cert.KernelIdeal.Chain

variable (m : (ℓ : Loc nD τ sig) → Buf (Elt Ideal) ℓ) (ρ : Dev nD → PrngReg)

/-- Batch `b`'s entry of the first result array: the two row halves' sums of row minima, added to a zero. -/
def rowsOut (c : Dev nD) (b : Fin 16) : EReal :=
  ((0 + ∑ r : Fin 2048, min (min ⊤ (tileRow (X m c) (Y m c) b 0 0 r)) (tileRow (X m c) (Y m c) b 0 1 r)) + ∑ r : Fin 2048, min (min ⊤ (tileRow (X m c) (Y m c) b 1 0 r)) (tileRow (X m c) (Y m c) b 1 1 r))
/-- Batch `b`'s entry of the second result array: the sum of the column minima. -/
def colsOut (c : Dev nD) (b : Fin 16) : EReal := ∑ j : Fin 4096, colMin (X m c) (Y m c) b j

/-- The first result array after the kernel, and the second. -/
abbrev rowsArr (c : Dev nD) : Buf (Elt Ideal) ((c : Thread nD τ).loc main_v1_0) := fun i => rowsOut m c ⟨(i 0).val, (i 0).isLt⟩
abbrev colsArr (c : Dev nD) : Buf (Elt Ideal) ((c : Thread nD τ).loc main_v1_1) := fun i => colsOut m c ⟨(i 0).val, (i 0).isLt⟩

/-- The two output windows' block indices and block extents at a point: decided over the grid. -/
theorem out_facts : ∀ t : Fin cfg0.N,
    (win0_2.index t 0 = t.val / 4 ∧ win0_2.index t 1 = 0 ∧ win0_2.index t 2 = 0)
    ∧ (win0_3.index t 0 = t.val / 4 ∧ win0_3.index t 1 = 0 ∧ win0_3.index t 2 = 0)
    ∧ (∀ a, win0_2.xsize (grid0.coords t) a = 1) ∧ (∀ a, win0_3.xsize (grid0.coords t) a = 1) :=
  (by decide +kernel : ∀ t : Fin grid0.N, _)

/-- What the write-back after a batch's last point writes to the first array is that array's block there. -/
theorem flushed_rows (c : Dev nD) (t : Fin cfg0.N) (hf : (cfg0.win 2).flush t = true) :
    (dats m 0 c).flushed 2 t = ((cfg0.win 2).blk t).view.read (Elt Ideal) (rowsArr m c) := by
  have h3 : t.val % 4 = 3 := (flush0_2 t).mp hf
  have hN : cfg0.N = 64 := N_0
  have hb : t.val / 4 < 16 := by have := t.isLt; omega
  have hL := afterLast m c ⟨t.val / 4, hb⟩ t (by show t.val = 4 * (t.val / 4) + 3; omega)
  obtain ⟨⟨e0, -, -⟩, -, -, -⟩ := out_facts t
  funext y
  have y0 : (y 0).val < 1 := (y 0).isLt
  have y1 : (y 1).val < 1 := (y 1).isLt
  have y2 : (y 2).val < 1 := (y 2).isLt
  have hy : (y : S1x1x1.Idx) = ix3 (0 : Fin 1) (0 : Fin 1) (0 : Fin 1) := funext fun a => Fin.ext (by
    match a with
    | ⟨0, _⟩ => show (y 0).val = 0; omega
    | ⟨1, _⟩ => show (y 1).val = 0; omega
    | ⟨2, _⟩ => show (y 2).val = 0; omega)
  rw [View.read_apply]
  show (dats m 0 c).after 2 t y = rowsArr m c _
  rw [after0_2]
  refine ((congrArg (outsAt0 m c t.val t.isLt).1 hy).trans hL.outRows).trans ?_
  show rowsOut m c ⟨t.val / 4, hb⟩ = rowsOut m c _
  exact congrArg (rowsOut m c) (Fin.ext (by
    show t.val / 4 = win0_2.index t 0 * 1 + 1 * (y 0).val
    rw [e0]; omega))

theorem flushed_cols (c : Dev nD) (t : Fin cfg0.N) (hf : (cfg0.win 3).flush t = true) :
    (dats m 0 c).flushed 3 t = ((cfg0.win 3).blk t).view.read (Elt Ideal) (colsArr m c) := by
  have h3 : t.val % 4 = 3 := (flush0_3 t).mp hf
  have hN : cfg0.N = 64 := N_0
  have hb : t.val / 4 < 16 := by have := t.isLt; omega
  have hL := afterLast m c ⟨t.val / 4, hb⟩ t (by show t.val = 4 * (t.val / 4) + 3; omega)
  obtain ⟨-, ⟨e0, -, -⟩, -, -⟩ := out_facts t
  funext y
  have y0 : (y 0).val < 1 := (y 0).isLt
  have y1 : (y 1).val < 1 := (y 1).isLt
  have y2 : (y 2).val < 1 := (y 2).isLt
  have hy : (y : S1x1x1.Idx) = ix3 (0 : Fin 1) (0 : Fin 1) (0 : Fin 1) := funext fun a => Fin.ext (by
    match a with
    | ⟨0, _⟩ => show (y 0).val = 0; omega
    | ⟨1, _⟩ => show (y 1).val = 0; omega
    | ⟨2, _⟩ => show (y 2).val = 0; omega)
  rw [View.read_apply]
  show (dats m 0 c).after 3 t y = colsArr m c _
  rw [after0_3]
  refine ((congrArg (outsAt0 m c t.val t.isLt).2.1 hy).trans hL.outCols).trans ?_
  show colsOut m c ⟨t.val / 4, hb⟩ = colsOut m c _
  exact congrArg (colsOut m c) (Fin.ext (by
    show t.val / 4 = win0_3.index t 0 * 1 + 1 * (y 0).val
    rw [e0]; omega))

/-- The last point of batch `b`. -/
def lastPt (b : Fin 16) : Fin cfg0.N := ⟨4 * b.val + 3, by rw [show cfg0.N = 64 from N_0]; have := b.isLt; omega⟩

/-- Entry `i` of the first result array lies in the block written back after the last point of batch `i 0`. -/
theorem cover_rows (i : S16x1x1.Idx) :
    ∃ t : Fin cfg0.N, (cfg0.win 2).flush t = true ∧ i ∈ ((cfg0.win 2).blk t).view.set := by
  have i0 : (i 0).val < 16 := (i 0).isLt
  have i1 : (i 1).val < 1 := (i 1).isLt
  have i2 : (i 2).val < 1 := (i 2).isLt
  refine ⟨lastPt ⟨(i 0).val, i0⟩, (flush0_2 _).mpr (by show (4 * (i 0).val + 3) % 4 = 3; omega), ?_⟩
  obtain ⟨⟨e0, e1, e2⟩, -, hx, -⟩ := out_facts (lastPt ⟨(i 0).val, i0⟩)
  have hv : (lastPt ⟨(i 0).val, i0⟩).val = 4 * (i 0).val + 3 := rfl
  show i ∈ ((View.whole main_v1_0).slice (win0_2.rect (lastPt ⟨(i 0).val, i0⟩))).set
  rw [View.set_slice_whole, Rect.mem_set_unit]
  intro a
  match a with
  | ⟨0, _⟩ =>
    show win0_2.index (lastPt ⟨(i 0).val, i0⟩) 0 * 1 ≤ (i 0).val ∧ (i 0).val < win0_2.index (lastPt ⟨(i 0).val, i0⟩) 0 * 1 + win0_2.xsize (grid0.coords (lastPt ⟨(i 0).val, i0⟩)) 0
    rw [e0, hx 0, hv]; omega
  | ⟨1, _⟩ =>
    show win0_2.index (lastPt ⟨(i 0).val, i0⟩) 1 * 1 ≤ (i 1).val ∧ (i 1).val < win0_2.index (lastPt ⟨(i 0).val, i0⟩) 1 * 1 + win0_2.xsize (grid0.coords (lastPt ⟨(i 0).val, i0⟩)) 1
    rw [e1, hx 1]; omega
  | ⟨2, _⟩ =>
    show win0_2.index (lastPt ⟨(i 0).val, i0⟩) 2 * 1 ≤ (i 2).val ∧ (i 2).val < win0_2.index (lastPt ⟨(i 0).val, i0⟩) 2 * 1 + win0_2.xsize (grid0.coords (lastPt ⟨(i 0).val, i0⟩)) 2
    rw [e2, hx 2]; omega

theorem cover_cols (i : S16x1x1.Idx) :
    ∃ t : Fin cfg0.N, (cfg0.win 3).flush t = true ∧ i ∈ ((cfg0.win 3).blk t).view.set := by
  have i0 : (i 0).val < 16 := (i 0).isLt
  have i1 : (i 1).val < 1 := (i 1).isLt
  have i2 : (i 2).val < 1 := (i 2).isLt
  refine ⟨lastPt ⟨(i 0).val, i0⟩, (flush0_3 _).mpr (by show (4 * (i 0).val + 3) % 4 = 3; omega), ?_⟩
  obtain ⟨-, ⟨e0, e1, e2⟩, -, hx⟩ := out_facts (lastPt ⟨(i 0).val, i0⟩)
  have hv : (lastPt ⟨(i 0).val, i0⟩).val = 4 * (i 0).val + 3 := rfl
  show i ∈ ((View.whole main_v1_1).slice (win0_3.rect (lastPt ⟨(i 0).val, i0⟩))).set
  rw [View.set_slice_whole, Rect.mem_set_unit]
  intro a
  match a with
  | ⟨0, _⟩ =>
    show win0_3.index (lastPt ⟨(i 0).val, i0⟩) 0 * 1 ≤ (i 0).val ∧ (i 0).val < win0_3.index (lastPt ⟨(i 0).val, i0⟩) 0 * 1 + win0_3.xsize (grid0.coords (lastPt ⟨(i 0).val, i0⟩)) 0
    rw [e0, hx 0, hv]; omega
  | ⟨1, _⟩ =>
    show win0_3.index (lastPt ⟨(i 0).val, i0⟩) 1 * 1 ≤ (i 1).val ∧ (i 1).val < win0_3.index (lastPt ⟨(i 0).val, i0⟩) 1 * 1 + win0_3.xsize (grid0.coords (lastPt ⟨(i 0).val, i0⟩)) 1
    rw [e1, hx 1]; omega
  | ⟨2, _⟩ =>
    show win0_3.index (lastPt ⟨(i 0).val, i0⟩) 2 * 1 ≤ (i 2).val ∧ (i 2).val < win0_3.index (lastPt ⟨(i 0).val, i0⟩) 2 * 1 + win0_3.xsize (grid0.coords (lastPt ⟨(i 0).val, i0⟩)) 2
    rw [e2, hx 2]; omega

/-- The two result arrays after the kernel. -/
theorem final_rows (c : Dev nD) : (dats m 0 c).arrAt 2 cfg0.N = rowsArr m c :=
  (dats m 0 c).arrAt_eq_of_cover 2 (rowsArr m c) (flushed_rows m c) cover_rows
theorem final_cols (c : Dev nD) : (dats m 0 c).arrAt 3 cfg0.N = colsArr m c :=
  (dats m 0 c).arrAt_eq_of_cover 3 (colsArr m c) (flushed_cols m c) cover_cols

/-! ## The host lines after the kernel -/

/-- The nine host lines after the kernel, as one function of the two result arrays. -/
def tail (a2 a3 : (⟨S16x1x1, .f32⟩ : BufTy).Contents (Elt Ideal)) : (⟨S_, .f32⟩ : BufTy).Contents (Elt Ideal) :=
  addf (mulf (constant (F := Ideal) S_ .f32 0x3F000000#32) (Host.reduceAdd (F := Ideal) a2 (constant (F := Ideal) S_ .f32 0x00000000#32) reducesTo_S16x1x1_S_d0_1_2 h_S_))
    (mulf (constant (F := Ideal) S_ .f32 0x3F000000#32) (Host.reduceAdd (F := Ideal) a3 (constant (F := Ideal) S_ .f32 0x00000000#32) reducesTo_S16x1x1_S_d0_1_2 h_S_))

/-- The sixteen entries of a 16 × 1 × 1 array, by batch. -/
def batchEquiv : S16x1x1.Idx ≃ Fin 16 where
  toFun i := ⟨(i 0).val, (i 0).isLt⟩
  invFun b := ix3 b (0 : Fin 1) (0 : Fin 1)
  left_inv i := funext fun a => Fin.ext (by
    match a with
    | ⟨0, _⟩ => rfl
    | ⟨1, _⟩ => show 0 = (i 1).val; have : (i 1).val < 1 := (i 1).isLt; omega
    | ⟨2, _⟩ => show 0 = (i 2).val; have : (i 2).val < 1 := (i 2).isLt; omega)
  right_inv b := rfl

/-- A zero plus the sum over a 16 × 1 × 1 array is a zero plus the sum over the batches. -/
theorem reduce_batches (f : Fin 16 → EReal) (i : S_.Idx) :
    Host.reduceAdd (F := Ideal) (fun j : S16x1x1.Idx => f ⟨(j 0).val, (j 0).isLt⟩) (constant (F := Ideal) S_ .f32 0x00000000#32) reducesTo_S16x1x1_S_d0_1_2 h_S_ i
      = 0 + ∑ b : Fin 16, f b := by
  simp only [Host.reduceAdd, Ideal.hostReduceAdd_def]
  refine (Ideal.hostReduceAdd_total reducesTo_S16x1x1_S_d0_1_2 (fun b => b.elim0) _ _ i).trans ?_
  refine congrArg₂ (· + ·) Ideal.ofBits_zero_f32 ?_
  exact Fintype.sum_equiv batchEquiv _ _ fun j => rfl

/-- The tail of the two result arrays is the tiled evaluation of the loss. -/
theorem tail_eq (c : Dev nD) : tail (rowsArr m c) (colsArr m c) = fun _ => tiled (X m c) (Y m c) := by
  funext i
  unfold tail tiled
  show Ideal.ofBits .f32 0x3F000000#32 * _ + Ideal.ofBits .f32 0x3F000000#32 * _ = half * _ + half * _
  exact congrArg₂ (· + ·) (congrArg (half * ·) (reduce_batches (rowsOut m c) i))
    (congrArg (half * ·) (reduce_batches (colsOut m c) i))

/-! ## The run -/

/-- Every weakly fair execution of the idealized kernel program terminates with the result at the tiled evaluation of the
    loss of its two arguments, and the arguments unchanged. -/
theorem run : θ_run defs (onTc (τ := τ) (main (F := Ideal))) ⟨m, fun _ => 0, ρ⟩ fun r => ∀ c : Dev nD,
      r.2.mem ((c.tc : Thread nD τ).loc main_v6) = (fun _ => tiled (X m c) (Y m c))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨by
      refine ((h c).2 main_v6 (Pipeline.mem_restRefs_of main_v6 (by decide) (by decide))).trans ?_
      unfold Pipeline.afterTail₀
      show StableHlo.after hostOps1 _ (Proc.devRef .tc main_v6) = _
      after_results
      exact (congrArg₂ tail
        ((Pipeline.withArrays_arr spec0 launch0.win.arr_inj c _ _ 2).trans (final_rows m c))
        ((Pipeline.withArrays_arr spec0 launch0.win.arr_inj c _ _ 3).trans (final_cols m c))).trans (tail_eq m c),
    ((h c).1 0).trans (((dats m 0 c).arrAt_in 0 rfl _).trans ((A_eq m c 0).trans (V_main_arg0 m c))),
    ((h c).2 main_arg1 (Pipeline.mem_restRefs_of main_arg1 (by decide) (by decide))).trans (W_main_arg1 m (dats m) c)⟩)
    (run_main m ρ)

end Cert.KernelIdeal.Final

end
-- ==== Proof.lean ====
/-
  The kernel computes the Chamfer loss of two batches of point clouds by tiles — a 16 × 2 × 2 grid over (batch, row half,
  column half), running row minima per row half, running column minima per batch, per-batch partial sums, and a final
  combination on the host — and the reference computes it from the full distance matrices.  Over the extended reals both
  are the same number: a minimum over 4096 points is the running minimum over the two halves, a sum over 4096 points is the
  sum of the two halves' sums, and the halving commutes.  No finiteness of the inputs is used.

  The three frames: the two kernel programs' are the generated frame certificates; the reference's is its run with the
  result dropped.  The idealization rewrote nothing.  The value claim: the idealized kernel's run ends at the tiled
  evaluation, the reference's at the loss, and the two are equal.
-/
import proofs.«131100_j51814485459453_1_alg».proof.Defs
import proofs.«131100_j51814485459453_1_alg».proof.Proof.Gen.Kernel
import proofs.«131100_j51814485459453_1_alg».proof.Proof.Gen.Kernel.Skeleton
import proofs.«131100_j51814485459453_1_alg».proof.Proof.Gen.Kernel.Launch
import proofs.«131100_j51814485459453_1_alg».proof.Proof.Gen.Kernel.Points
import proofs.«131100_j51814485459453_1_alg».proof.Proof.Gen.Kernel.Frame
import proofs.«131100_j51814485459453_1_alg».proof.Proof.Gen.KernelIdeal
import proofs.«131100_j51814485459453_1_alg».proof.Proof.Gen.KernelIdeal.Skeleton
import proofs.«131100_j51814485459453_1_alg».proof.Proof.Gen.KernelIdeal.Launch
import proofs.«131100_j51814485459453_1_alg».proof.Proof.Gen.KernelIdeal.Points
import proofs.«131100_j51814485459453_1_alg».proof.Proof.Gen.KernelIdeal.Frame
import proofs.«131100_j51814485459453_1_alg».proof.Proof.Gen.ReferenceIdeal
import proofs.«131100_j51814485459453_1_alg».proof.Proof.Gen.ReferenceIdeal.Run
import proofs.«131100_j51814485459453_1_alg».proof.Proof.Gen.ReferenceIdeal.Read
import proofs.«131100_j51814485459453_1_alg».proof.Proof.Gen.Pre_finite_inputs
import proofs.«131100_j51814485459453_1_alg».proof.Proof.Spec
import proofs.«131100_j51814485459453_1_alg».proof.Proof.RefSide
import proofs.«131100_j51814485459453_1_alg».proof.Proof.Final
import Idealize.ShloMosaic.Adequacy
import Idealize.ShloMosaic.Init

noncomputable section

namespace Cert.Proof

open Idealize.ShloMosaic Idealize.SL.Sem

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.Value.run (F := Ideal) m ρ),
  trivial,
  fun m ρ m' ρ' _ hagree =>
    ⟨fun c => fun _ => Cert.Chamfer.tiled (Cert.KernelIdeal.Blocks.X m c) (Cert.KernelIdeal.Blocks.Y m c),
      Cert.KernelIdeal.Final.run m ρ,
      (θ_run Cert.ReferenceIdeal.defs _ _).mono (fun _ h c => ⟨by
          refine ((h c).1.trans (Cert.ReferenceIdeal.Read.val_main_v21_eq _ _)).trans ((Cert.RefSide.ref_eq _ _).trans ?_)
          rw [(hagree c).1, (hagree c).2]
          exact funext fun _ => (Cert.Chamfer.tiled_eq_loss _ _).symm, (h c).2⟩)
        (Cert.ReferenceIdeal.Value.run (F := Ideal) m' ρ')⟩⟩

end Cert.Proof

end
